-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2000000x4 : Shape := ⟨3, ![1, 2000000, 4]⟩
abbrev S1x2000000x2 : Shape := ⟨3, ![1, 2000000, 2]⟩
abbrev S1x2000000 : Shape := ⟨2, ![1, 2000000]⟩
abbrev S1x500000 : Shape := ⟨2, ![1, 500000]⟩
abbrev S_ : Shape := ⟨0, ![]⟩

class Facts : Prop where
  bcast_S_S1x2000000x4 : S_.BroadcastsInDim S1x2000000x4 (![] : Fin 0 → Fin S1x2000000x4.rank)
  reducesTo_S1x2000000x4_S_d0_1_2 : S1x2000000x4.ReducesTo [0, 1, 2] S_
  h_S_ : 0 < S_.numel
  bcast_S_S1x2000000x2 : S_.BroadcastsInDim S1x2000000x2 (![] : Fin 0 → Fin S1x2000000x2.rank)
  reducesTo_S1x2000000x2_S_d0_1_2 : S1x2000000x2.ReducesTo [0, 1, 2] S_
  bcast_S_S1x500000 : S_.BroadcastsInDim S1x500000 (![] : Fin 0 → Fin S1x500000.rank)
  reducesTo_S1x500000_S_d0_1 : S1x500000.ReducesTo [0, 1] S_
  bcast_S_S1x2000000 : S_.BroadcastsInDim S1x2000000 (![] : Fin 0 → Fin S1x2000000.rank)
  reducesTo_S1x2000000_S_d0_1 : S1x2000000.ReducesTo [0, 1] S_

variable [Facts]

def fn_part2 {F : FTy → Type} [FloatOps F] (main_v30 : IVec S_ 1) (main_v32 : IVec S1x2000000 1) : IVec S_ 1 :=
  let main_c_13 : IVec S_ 1 := constantI S_ 1 1#1
  let main_v33 : IVec S_ 1 := (fun x v => Host.reduce IntOp.andi x v reducesTo_S1x2000000_S_d0_1 h_S_) main_v32 main_c_13
  let main_v34 : IVec S_ 1 := andi main_v30 main_v33
  main_v34

def fn_part1 {F : FTy → Type} [FloatOps F] (main_arg4 : IVec S1x2000000 32) (main_arg5 : IVec S1x500000 32) (main_v13 : IVec S_ 1) (main_v16 : IVec S1x2000000x4 1) : IVec S_ 1 :=
  let main_c_5 : IVec S_ 1 := constantI S_ 1 1#1
  let main_v17 : IVec S_ 1 := (fun x v => Host.reduce IntOp.andi x v reducesTo_S1x2000000x4_S_d0_1_2 h_S_) main_v16 main_c_5
  let main_v18 : IVec S_ 1 := andi main_v13 main_v17
  let main_c_6 : IVec S_ 32 := constantI S_ 32 0#32
  let main_v19 : IVec S1x500000 32 := broadcastInDim S1x500000 ![] bcast_S_S1x500000 main_c_6
  let main_v20 : IVec S1x500000 1 := cmpi .sge main_arg5 main_v19
  let main_c_7 : IVec S_ 1 := constantI S_ 1 1#1
  let main_v21 : IVec S_ 1 := (fun x v => Host.reduce IntOp.andi x v reducesTo_S1x500000_S_d0_1 h_S_) main_v20 main_c_7
  let main_v22 : IVec S_ 1 := andi main_v18 main_v21
  let main_c_8 : IVec S_ 32 := constantI S_ 32 2000000#32
  let main_v23 : IVec S1x500000 32 := broadcastInDim S1x500000 ![] bcast_S_S1x500000 main_c_8
  let main_v24 : IVec S1x500000 1 := cmpi .slt main_arg5 main_v23
  let main_c_9 : IVec S_ 1 := constantI S_ 1 1#1
  let main_v25 : IVec S_ 1 := (fun x v => Host.reduce IntOp.andi x v reducesTo_S1x500000_S_d0_1 h_S_) main_v24 main_c_9
  let main_v26 : IVec S_ 1 := andi main_v22 main_v25
  let main_c_10 : IVec S_ 32 := constantI S_ 32 0#32
  let main_v27 : IVec S1x2000000 32 := broadcastInDim S1x2000000 ![] bcast_S_S1x2000000 main_c_10
  let main_v28 : IVec S1x2000000 1 := cmpi .sge main_arg4 main_v27
  let main_c_11 : IVec S_ 1 := constantI S_ 1 1#1
  let main_v29 : IVec S_ 1 := (fun x v => Host.reduce IntOp.andi x v reducesTo_S1x2000000_S_d0_1 h_S_) main_v28 main_c_11
  let main_v30 : IVec S_ 1 := andi main_v26 main_v29
  let main_c_12 : IVec S_ 32 := constantI S_ 32 2#32
  let main_v31 : IVec S1x2000000 32 := broadcastInDim S1x2000000 ![] bcast_S_S1x2000000 main_c_12
  let main_v32 : IVec S1x2000000 1 := cmpi .slt main_arg4 main_v31
  fn_part2 (F := F) main_v30 main_v32

def fn {F : FTy → Type} [FloatOps F] (main_arg0 : FVec F S1x2000000x4 .f32) (main_arg1 : FVec F S1x2000000x4 .f32) (main_arg2 : FVec F S1x2000000x2 .f32) (main_arg3 : FVec F S1x2000000x4 .f32) (main_arg4 : IVec S1x2000000 32) (main_arg5 : IVec S1x500000 32) : IVec S_ 1 :=
  let main_v0 : FVec F S1x2000000x4 .f32 := Host.absf main_arg0
  let main_cst : FVec F S_ .f32 := constant S_ .f32 0x7F800000#32
  let main_v1 : FVec F S1x2000000x4 .f32 := broadcastInDim S1x2000000x4 ![] bcast_S_S1x2000000x4 main_cst
  let main_v2 : IVec S1x2000000x4 1 := cmpf .olt main_v0 main_v1
  let main_c : IVec S_ 1 := constantI S_ 1 1#1
  let main_v3 : IVec S_ 1 := (fun x v => Host.reduce IntOp.andi x v reducesTo_S1x2000000x4_S_d0_1_2 h_S_) main_v2 main_c
  let main_v4 : FVec F S1x2000000x4 .f32 := Host.absf main_arg1
  let main_cst_0 : FVec F S_ .f32 := constant S_ .f32 0x7F800000#32
  let main_v5 : FVec F S1x2000000x4 .f32 := broadcastInDim S1x2000000x4 ![] bcast_S_S1x2000000x4 main_cst_0
  let main_v6 : IVec S1x2000000x4 1 := cmpf .olt main_v4 main_v5
  let main_c_1 : IVec S_ 1 := constantI S_ 1 1#1
  let main_v7 : IVec S_ 1 := (fun x v => Host.reduce IntOp.andi x v reducesTo_S1x2000000x4_S_d0_1_2 h_S_) main_v6 main_c_1
  let main_v8 : IVec S_ 1 := andi main_v3 main_v7
  let main_v9 : FVec F S1x2000000x2 .f32 := Host.absf main_arg2
  let main_cst_2 : FVec F S_ .f32 := constant S_ .f32 0x7F800000#32
  let main_v10 : FVec F S1x2000000x2 .f32 := broadcastInDim S1x2000000x2 ![] bcast_S_S1x2000000x2 main_cst_2
  let main_v11 : IVec S1x2000000x2 1 := cmpf .olt main_v9 main_v10
  let main_c_3 : IVec S_ 1 := constantI S_ 1 1#1
  let main_v12 : IVec S_ 1 := (fun x v => Host.reduce IntOp.andi x v reducesTo_S1x2000000x2_S_d0_1_2 h_S_) main_v11 main_c_3
  let main_v13 : IVec S_ 1 := andi main_v8 main_v12
  let main_v14 : FVec F S1x2000000x4 .f32 := Host.absf main_arg3
  let main_cst_4 : FVec F S_ .f32 := constant S_ .f32 0x7F800000#32
  let main_v15 : FVec F S1x2000000x4 .f32 := broadcastInDim S1x2000000x4 ![] bcast_S_S1x2000000x4 main_cst_4
  let main_v16 : IVec S1x2000000x4 1 := cmpf .olt main_v14 main_v15
  fn_part1 (F := F) main_arg4 main_arg5 main_v13 main_v16
-- ==== Kernel.lean ====
abbrev S1x2000000x4 : Shape := ⟨3, ![1, 2000000, 4]⟩
abbrev S1x2000000x2 : Shape := ⟨3, ![1, 2000000, 2]⟩
abbrev S1x2000000 : Shape := ⟨2, ![1, 2000000]⟩
abbrev S1x500000 : Shape := ⟨2, ![1, 500000]⟩
abbrev S500000 : Shape := ⟨1, ![500000]⟩
abbrev S_ : Shape := ⟨0, ![]⟩
abbrev S2000000 : Shape := ⟨1, ![2000000]⟩
abbrev S500000x1 : Shape := ⟨2, ![500000, 1]⟩
abbrev S2000000x1 : Shape := ⟨2, ![2000000, 1]⟩
abbrev S2000000x4 : Shape := ⟨2, ![2000000, 4]⟩
abbrev S2000000x2 : Shape := ⟨2, ![2000000, 2]⟩
abbrev S800x128 : Shape := ⟨2, ![800, 128]⟩
abbrev S20000x4 : Shape := ⟨2, ![20000, 4]⟩
abbrev S20000x2 : Shape := ⟨2, ![20000, 2]⟩
abbrev S20000x1 : Shape := ⟨2, ![20000, 1]⟩
abbrev S8x128 : Shape := ⟨2, ![8, 128]⟩
abbrev S20000 : Shape := ⟨1, ![20000]⟩
abbrev S1x20000x1 : Shape := ⟨3, ![1, 20000, 1]⟩
abbrev S1 : Shape := ⟨1, ![1]⟩
abbrev S1x1x1 : Shape := ⟨3, ![1, 1, 1]⟩
abbrev S5 : Shape := ⟨1, ![5]⟩
abbrev S1x5 : Shape := ⟨2, ![1, 5]⟩
abbrev S7x5 : Shape := ⟨2, ![7, 5]⟩
abbrev S8x5 : Shape := ⟨2, ![8, 5]⟩
abbrev S8x123 : Shape := ⟨2, ![8, 123]⟩
abbrev S100x8x128 : Shape := ⟨3, ![100, 8, 128]⟩
abbrev S100x1x5 : Shape := ⟨3, ![100, 1, 5]⟩
abbrev S100x5 : Shape := ⟨2, ![100, 5]⟩

abbrev nBuf : Space → Nat
  | .hbm => 50
  | .vmem => 14
  | .smem => 0
  | _ => 0

abbrev bufTy : (tb : Table) → Fin (tcTables nBuf tb) → BufTy
  | .hbm, ⟨0, _⟩ => ⟨S1x2000000x4, .f32⟩
  | .hbm, ⟨1, _⟩ => ⟨S1x2000000x4, .f32⟩
  | .hbm, ⟨2, _⟩ => ⟨S1x2000000x2, .f32⟩
  | .hbm, ⟨3, _⟩ => ⟨S1x2000000x4, .f32⟩
  | .hbm, ⟨4, _⟩ => ⟨S1x2000000, .i32⟩
  | .hbm, ⟨5, _⟩ => ⟨S1x500000, .i32⟩
  | .hbm, ⟨6, _⟩ => ⟨S500000, .i32⟩
  | .hbm, ⟨7, _⟩ => ⟨S_, .f32⟩
  | .hbm, ⟨8, _⟩ => ⟨S2000000, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S_, .f32⟩
  | .hbm, ⟨18, _⟩ => ⟨S500000, .f32⟩
  | .hbm, ⟨19, _⟩ => ⟨S2000000, .f32⟩
  | .hbm, ⟨20, _⟩ => ⟨S2000000x1, .f32⟩
  | .hbm, ⟨21, _⟩ => ⟨S2000000, .i32⟩
  | .hbm, ⟨22, _⟩ => ⟨S2000000x1, .i32⟩
  | .hbm, ⟨23, _⟩ => ⟨S2000000x4, .f32⟩
  | .hbm, ⟨24, _⟩ => ⟨S2000000x4, .f32⟩
  | .hbm, ⟨25, _⟩ => ⟨S2000000x2, .f32⟩
  | .hbm, ⟨26, _⟩ => ⟨S2000000x4, .f32⟩
  | .hbm, ⟨27, _⟩ => ⟨S800x128, .f32⟩
  | .hbm, ⟨28, _⟩ => ⟨S100x8x128, .f32⟩
  | .hbm, ⟨29, _⟩ => ⟨S100x1x5, .f32⟩
  | .hbm, ⟨30, _⟩ => ⟨S100x5, .f32⟩
  | .hbm, ⟨31, _⟩ => ⟨S_, .f32⟩
  | .hbm, ⟨32, _⟩ => ⟨S5, .f32⟩
  | .hbm, ⟨33, _⟩ => ⟨S1, .f32⟩
  | .hbm, ⟨34, _⟩ => ⟨S_, .f32⟩
  | .hbm, ⟨35, _⟩ => ⟨S1, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S20000x4, .f32⟩
  | .local _ .vmem, ⟨1, _⟩ => ⟨S20000x4, .f32⟩
  | .local _ .vmem, ⟨2, _⟩ => ⟨S20000x4, .f32⟩
  | .local _ .vmem, ⟨3, _⟩ => ⟨S20000x4, .f32⟩
  | .local _ .vmem, ⟨4, _⟩ => ⟨S20000x2, .f32⟩
  | .local _ .vmem, ⟨5, _⟩ => ⟨S20000x2, .f32⟩
  | .local _ .vmem, ⟨6, _⟩ => ⟨S20000x4, .f32⟩
  | .local _ .vmem, ⟨7, _⟩ => ⟨S20000x4, .f32⟩
  | .local _ .vmem, ⟨8, _⟩ => ⟨S20000x1, .f32⟩
  | .local _ .vmem, ⟨9, _⟩ => ⟨S20000x1, .f32⟩
  | .local _ .vmem, ⟨10, _⟩ => ⟨S20000x1, .i32⟩
  | .local _ .vmem, ⟨11, _⟩ => ⟨S20000x1, .i32⟩
  | .local _ .vmem, ⟨12, _⟩ => ⟨S8x128, .f32⟩
  | .local _ .vmem, ⟨13, _⟩ => ⟨S8x128, .f32⟩
  | _, _ => ⟨S1x2000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S20000x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S20000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S20000x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S1x500000_S500000 : S1x500000.ShapeCasts S500000
  bcast_S_S2000000 : S_.BroadcastsInDim S2000000 (![] : Fin 0 → Fin S2000000.rank)
  bcast_S_S500000 : S_.BroadcastsInDim S500000 (![] : Fin 0 → Fin S500000.rank)
  bcast_S500000_S500000x1_0 : S500000.BroadcastsInDim S500000x1 (![0] : Fin 1 → Fin S500000x1.rank)
  shapeCasts_S2000000_S2000000x1 : S2000000.ShapeCasts S2000000x1
  shapeCasts_S1x2000000_S2000000 : S1x2000000.ShapeCasts S2000000
  shapeCasts_S1x2000000x4_S2000000x4 : S1x2000000x4.ShapeCasts S2000000x4
  shapeCasts_S1x2000000x2_S2000000x2 : S1x2000000x2.ShapeCasts S2000000x2
  inb_S20000x4_S20000x4_0_0 : ∀ a, (![0, 0] : Fin 2 → Nat) a + S20000x4.size a ≤ S20000x4.size a
  h_S20000x4 : 0 < S20000x4.numel
  shapeCasts_S20000x4_S20000x4 : S20000x4.ShapeCasts S20000x4
  inb_S20000x2_S20000x2_0_0 : ∀ a, (![0, 0] : Fin 2 → Nat) a + S20000x2.size a ≤ S20000x2.size a
  h_S20000x2 : 0 < S20000x2.numel
  shapeCasts_S20000x2_S20000x2 : S20000x2.ShapeCasts S20000x2
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  reduces_S20000x2_S20000 : S20000x2.Reduces [1] S20000
  shapeCasts_S20000_S20000x1 : S20000.ShapeCasts S20000x1
  broadcasts_S20000x1_S20000x2 : S20000x1.Broadcasts S20000x2
  slices_S20000x2_o0_0_S20000x1 : S20000x2.Slices ![0, 0] S20000x1
  slices_S20000x2_o0_1_S20000x1 : S20000x2.Slices ![0, 1] S20000x1
  reduces_S20000x4_S20000 : S20000x4.Reduces [1] S20000
  shapeCasts_S20000x1_S1x20000x1 : S20000x1.ShapeCasts S1x20000x1
  reduces_S1x20000x1_S1 : S1x20000x1.Reduces [1, 2] S1
  shapeCasts_S1_S1x1x1 : S1.ShapeCasts S1x1x1
  inpos_S1x1x1_p0_0_0 : ∀ a, (![0, 0, 0] : Fin 3 → Nat) a < S1x1x1.size a
  concatenates_S1_S1_S1_S1_S1_S5_d0 : Shape.Concatenates [S1, S1, S1, S1, S1] S5 0
  shapeCasts_S5_S1x5 : S5.ShapeCasts S1x5
  concatenates_S1x5_S7x5_S8x5_d0 : Shape.Concatenates [S1x5, S7x5] S8x5 0
  concatenates_S8x5_S8x123_S8x128_d1 : Shape.Concatenates [S8x5, S8x123] S8x128 1
  inb_S8x128_S8x128_0_0 : ∀ a, (![0, 0] : Fin 2 → Nat) a + S8x128.size a ≤ S8x128.size a
  h_S8x128 : 0 < S8x128.numel
  shapeCasts_S800x128_S100x8x128 : S800x128.ShapeCasts S100x8x128
  slices_S100x8x128_S100x1x5_0_0_0 : S100x8x128.Slices ![0, 0, 0] S100x1x5
  shapeCasts_S100x1x5_S100x5 : S100x1x5.ShapeCasts S100x5
  reducesTo_S100x5_S5_d0 : S100x5.ReducesTo [0] S5
  h_S_ : 0 < S_.numel
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  scatter_S2000000_S500000x1_S500000_n_0_0_1_wf : ScatterDims.WF S2000000 S500000x1 S500000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x4.size a ≤ S2000000x4.size a
  hwx0_0 : ∀ i : grid0.Coords, EltTy.bits .f32 = 32 ∨ (Rect.block (s := S2000000x4) S20000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x4.size a ≤ S2000000x4.size a
  hwx0_1 : ∀ i : grid0.Coords, EltTy.bits .f32 = 32 ∨ (Rect.block (s := S2000000x4) S20000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x2.size a ≤ S2000000x2.size a
  hwx0_2 : ∀ i : grid0.Coords, EltTy.bits .f32 = 32 ∨ (Rect.block (s := S2000000x2) S20000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S20000x4.size a ≤ S2000000x4.size a
  hwx0_3 : ∀ i : grid0.Coords, EltTy.bits .f32 = 32 ∨ (Rect.block (s := S2000000x4) S20000x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S20000x1.size a ≤ S2000000x1.size a
  hwx0_4 : ∀ i : grid0.Coords, EltTy.bits .f32 = 32 ∨ (Rect.block (s := S2000000x1) S20000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S20000x1.size a ≤ S2000000x1.size a
  hwx0_5 : ∀ i : grid0.Coords, EltTy.bits .i32 = 32 ∨ (Rect.block (s := S2000000x1) S20000x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S800x128.size a
  hwx0_6 : ∀ i : grid0.Coords, EltTy.bits .f32 = 32 ∨ (Rect.block (s := S800x128) S8x128.size (cc0_transform_6 i) (hinb0_6 i)).WholeWords (EltTy.packing .f32)

variable [Facts₀]

def scatter_S2000000_S500000x1_S500000_n_0_0_1 : ScatterDims S2000000 S500000x1 S500000 where
  updateWindowDims := []
  insertedWindowDims := [0]
  scatterDimsToOperandDims := [0]
  indexVectorDim := 1
  wf := scatter_S2000000_S500000x1_S500000_n_0_0_1_wf

abbrev win0_0 : Pipeline.Window sig grid0 :=
  Pipeline.Window.ofSpec (Memref.whole main_v13) S20000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S20000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S20000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S20000x4.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S20000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S20000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x2000000x4 : Shape := ⟨3, ![1, 2000000, 4]⟩
abbrev S1x2000000x2 : Shape := ⟨3, ![1, 2000000, 2]⟩
abbrev S1x2000000 : Shape := ⟨2, ![1, 2000000]⟩
abbrev S1x500000 : Shape := ⟨2, ![1, 500000]⟩
abbrev S500000 : Shape := ⟨1, ![500000]⟩
abbrev S2000000 : Shape := ⟨1, ![2000000]⟩
abbrev S_ : Shape := ⟨0, ![]⟩
abbrev S500000x1 : Shape := ⟨2, ![500000, 1]⟩
abbrev S2000000x2 : Shape := ⟨2, ![2000000, 2]⟩
abbrev S500000x2 : Shape := ⟨2, ![500000, 2]⟩
abbrev S500000x1x1 : Shape := ⟨3, ![500000, 1, 1]⟩
abbrev S1 : Shape := ⟨1, ![1]⟩
abbrev S1x1x1 : Shape := ⟨3, ![1, 1, 1]⟩
abbrev S2000000x4 : Shape := ⟨2, ![2000000, 4]⟩
abbrev S500000x4 : Shape := ⟨2, ![500000, 4]⟩

abbrev nBuf : Space → Nat
  | .hbm => 146
  | .vmem => 0
  | .smem => 0
  | _ => 0

abbrev hbmTy0_0 (i : Nat) : BufTy := match i % 128 with
  | 0 => ⟨S1x2000000x4, .f32⟩
  | 1 => ⟨S1x2000000x4, .f32⟩
  | 2 => ⟨S1x2000000x2, .f32⟩
  | 3 => ⟨S1x2000000x4, .f32⟩
  | 4 => ⟨S1x2000000, .i32⟩
  | 5 => ⟨S1x500000, .i32⟩
  | 6 => ⟨S500000, .i32⟩
  | 7 => ⟨S2000000, .i32⟩
  | 8 => ⟨S_, .i32⟩
  | 9 => ⟨S500000, .i32⟩
  | 10 => ⟨S500000, .i1⟩
  | 11 => ⟨S_, .i32⟩
  | 12 => ⟨S500000, .i32⟩
  | 13 => ⟨S500000, .i32⟩
  | 14 => ⟨S500000, .i32⟩
  | 15 => ⟨S500000x1, .i32⟩
  | 16 => ⟨S500000, .i32⟩
  | 17 => ⟨S2000000x2, .f32⟩
  | 18 => ⟨S_, .i32⟩
  | 19 => ⟨S500000, .i32⟩
  | 20 => ⟨S500000, .i1⟩
  | 21 => ⟨S_, .i32⟩
  | 22 => ⟨S500000, .i32⟩
  | 23 => ⟨S500000, .i32⟩
  | 24 => ⟨S500000, .i32⟩
  | 25 => ⟨S500000x1, .i32⟩
  | 26 => ⟨S500000x2, .f32⟩
  | 27 => ⟨S_, .f32⟩
  | 28 => ⟨S500000, .f32⟩
  | 29 => ⟨S_, .f32⟩
  | 30 => ⟨S500000, .f32⟩
  | 31 => ⟨S500000, .f32⟩
  | 32 => ⟨S500000x1, .f32⟩
  | 33 => ⟨S500000x2, .f32⟩
  | 34 => ⟨S500000x2, .f32⟩
  | 35 => ⟨S500000x2, .f32⟩
  | 36 => ⟨S_, .f32⟩
  | 37 => ⟨S500000, .f32⟩
  | 38 => ⟨S500000x1, .f32⟩
  | 39 => ⟨S500000x1, .f32⟩
  | 40 => ⟨S500000x2, .f32⟩
  | 41 => ⟨S500000x2, .f32⟩
  | 42 => ⟨S500000x1, .i32⟩
  | 43 => ⟨S_, .i32⟩
  | 44 => ⟨S500000x1, .i32⟩
  | 45 => ⟨S500000x1, .i1⟩
  | 46 => ⟨S_, .i32⟩
  | 47 => ⟨S500000x1, .i32⟩
  | 48 => ⟨S500000x1, .i32⟩
  | 49 => ⟨S500000x1, .i32⟩
  | 50 => ⟨S500000x1x1, .i32⟩
  | 51 => ⟨S1, .i32⟩
  | 52 => ⟨S_, .i32⟩
  | 53 => ⟨S500000x1x1, .i32⟩
  | 54 => ⟨S500000x1x1, .i1⟩
  | 55 => ⟨S1x1x1, .i32⟩
  | 56 => ⟨S500000x1x1, .i32⟩
  | 57 => ⟨S500000x1x1, .i1⟩
  | 58 => ⟨S500000x1x1, .i1⟩
  | 59 => ⟨S_, .i1⟩
  | 60 => ⟨S500000x1, .i1⟩
  | 61 => ⟨S500000x1, .f32⟩
  | 62 => ⟨S_, .f32⟩
  | 63 => ⟨S500000x1, .f32⟩
  | 64 => ⟨S500000x1, .f32⟩
  | 65 => ⟨S_, .f32⟩
  | 66 => ⟨S_, .f32⟩
  | 67 => ⟨S_, .f32⟩
  | 68 => ⟨S_, .f32⟩
  | 69 => ⟨S_, .f32⟩
  | 70 => ⟨S2000000x4, .f32⟩
  | 71 => ⟨S_, .i32⟩
  | 72 => ⟨S500000, .i32⟩
  | 73 => ⟨S500000, .i1⟩
  | 74 => ⟨S_, .i32⟩
  | 75 => ⟨S500000, .i32⟩
  | 76 => ⟨S500000, .i32⟩
  | 77 => ⟨S500000, .i32⟩
  | 78 => ⟨S500000x1, .i32⟩
  | 79 => ⟨S500000x4, .f32⟩
  | 80 => ⟨S2000000x4, .f32⟩
  | 81 => ⟨S_, .i32⟩
  | 82 => ⟨S500000, .i32⟩
  | 83 => ⟨S500000, .i1⟩
  | 84 => ⟨S_, .i32⟩
  | 85 => ⟨S500000, .i32⟩
  | 86 => ⟨S500000, .i32⟩
  | 87 => ⟨S500000, .i32⟩
  | 88 => ⟨S500000x1, .i32⟩
  | 89 => ⟨S500000x4, .f32⟩
  | 90 => ⟨S2000000x4, .f32⟩
  | 91 => ⟨S_, .i32⟩
  | 92 => ⟨S500000, .i32⟩
  | 93 => ⟨S500000, .i1⟩
  | 94 => ⟨S_, .i32⟩
  | 95 => ⟨S500000, .i32⟩
  | 96 => ⟨S500000, .i32⟩
  | 97 => ⟨S500000, .i32⟩
  | 98 => ⟨S500000x1, .i32⟩
  | 99 => ⟨S500000x4, .f32⟩
  | 100 => ⟨S500000x4, .f32⟩
  | 101 => ⟨S_, .f32⟩
  | 102 => ⟨S500000x4, .f32⟩
  | 103 => ⟨S500000x4, .f32⟩
  | 104 => ⟨S500000x4, .f32⟩
  | 105 => ⟨S500000x4, .f32⟩
  | 106 => ⟨S_, .f32⟩
  | 107 => ⟨S500000x4, .f32⟩
  | 108 => ⟨S500000x4, .f32⟩
  | 109 => ⟨S500000x4, .f32⟩
  | 110 => ⟨S500000x4, .f32⟩
  | 111 => ⟨S_, .f32⟩
  | 112 => ⟨S500000x4, .f32⟩
  | 113 => ⟨S500000x4, .f32⟩
  | 114 => ⟨S500000x4, .f32⟩
  | 115 => ⟨S_, .f32⟩
  | 116 => ⟨S500000, .f32⟩
  | 117 => ⟨S_, .f32⟩
  | 118 => ⟨S500000x4, .f32⟩
  | 119 => ⟨S500000x4, .f32⟩
  | 120 => ⟨S_, .f32⟩
  | 121 => ⟨S500000, .f32⟩
  | 122 => ⟨S_, .i32⟩
  | 123 => ⟨S500000, .i32⟩
  | 124 => ⟨S500000, .i1⟩
  | 125 => ⟨S500000, .f32⟩
  | 126 => ⟨S_, .f32⟩
  | 127 => ⟨S_, .f32⟩
  | _ => ⟨S1x2000000x4, .f32⟩

abbrev hbmTy0_1 (i : Nat) : BufTy := match i % 128 with
  | 0 => ⟨S_, .f32⟩
  | 1 => ⟨S500000, .f32⟩
  | 2 => ⟨S500000, .f32⟩
  | 3 => ⟨S_, .f32⟩
  | 4 => ⟨S_, .f32⟩
  | 5 => ⟨S500000, .f32⟩
  | 6 => ⟨S_, .f32⟩
  | 7 => ⟨S_, .f32⟩
  | 8 => ⟨S_, .f32⟩
  | 9 => ⟨S_, .f32⟩
  | 10 => ⟨S500000, .f32⟩
  | 11 => ⟨S500000, .f32⟩
  | 12 => ⟨S500000, .f32⟩
  | 13 => ⟨S_, .f32⟩
  | 14 => ⟨S_, .f32⟩
  | 15 => ⟨S_, .f32⟩
  | 16 => ⟨S_, .f32⟩
  | 17 => ⟨S_, .f32⟩
  | _ => ⟨S1x2000000x4, .f32⟩

abbrev hbmTy (i : Nat) : BufTy := match i / 128 with
  | 0 => hbmTy0_0 i
  | 1 => hbmTy0_1 i
  | _ => ⟨S1x2000000x4, .f32⟩

abbrev bufTy : (tb : Table) → Fin (tcTables nBuf tb) → BufTy
  | .hbm, ⟨i, _⟩ => hbmTy i
  | _, _ => ⟨S1x2000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_call0_cst_0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_cst_1 : Ref sig .tc := ⟨.hbm, 36, rfl⟩
abbrev main_call0_v7 : Ref sig .tc := ⟨.hbm, 37, rfl⟩
abbrev main_call0_v8 : Ref sig .tc := ⟨.hbm, 38, rfl⟩
abbrev main_call0_v9 : Ref sig .tc := ⟨.hbm, 39, rfl⟩
abbrev main_call0_v10 : Ref sig .tc := ⟨.hbm, 40, rfl⟩
abbrev main_v17 : Ref sig .tc := ⟨.hbm, 41, rfl⟩
abbrev main_v18 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v19 : Ref sig .tc := ⟨.hbm, 64, rfl⟩
abbrev main_cst : Ref sig .tc := ⟨.hbm, 65, rfl⟩
abbrev main_v20 : Ref sig .tc := ⟨.hbm, 66, rfl⟩
abbrev main_cst_3 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_c_4 : Ref sig .tc := ⟨.hbm, 71, rfl⟩
abbrev main_v24 : Ref sig .tc := ⟨.hbm, 72, rfl⟩
abbrev main_v25 : Ref sig .tc := ⟨.hbm, 73, rfl⟩
abbrev main_c_5 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_c_6 : Ref sig .tc := ⟨.hbm, 81, rfl⟩
abbrev main_v32 : Ref sig .tc := ⟨.hbm, 82, rfl⟩
abbrev main_v33 : Ref sig .tc := ⟨.hbm, 83, rfl⟩
abbrev main_c_7 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_c_8 : Ref sig .tc := ⟨.hbm, 91, rfl⟩
abbrev main_v40 : Ref sig .tc := ⟨.hbm, 92, rfl⟩
abbrev main_v41 : Ref sig .tc := ⟨.hbm, 93, rfl⟩
abbrev main_c_9 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_10 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_cst_11 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_cst_12 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_cst_13 : Ref sig .tc := ⟨.hbm, 115, rfl⟩
abbrev main_v59 : Ref sig .tc := ⟨.hbm, 116, rfl⟩
abbrev main_cst_14 : Ref sig .tc := ⟨.hbm, 117, rfl⟩
abbrev main_v60 : Ref sig .tc := ⟨.hbm, 118, rfl⟩
abbrev main_v61 : Ref sig .tc := ⟨.hbm, 119, rfl⟩
abbrev main_cst_15 : Ref sig .tc := ⟨.hbm, 120, rfl⟩
abbrev main_v62 : Ref sig .tc := ⟨.hbm, 121, rfl⟩
abbrev main_c_16 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_17 : Ref sig .tc := ⟨.hbm, 126, rfl⟩
abbrev main_v66 : Ref sig .tc := ⟨.hbm, 127, rfl⟩
abbrev main_cst_18 : Ref sig .tc := ⟨.hbm, 128, rfl⟩
abbrev main_v67 : Ref sig .tc := ⟨.hbm, 129, rfl⟩
abbrev main_v68 : Ref sig .tc := ⟨.hbm, 130, rfl⟩
abbrev main_cst_19 : Ref sig .tc := ⟨.hbm, 131, rfl⟩
abbrev main_v69 : Ref sig .tc := ⟨.hbm, 132, rfl⟩
abbrev main_v70 : Ref sig .tc := ⟨.hbm, 133, rfl⟩
abbrev main_cst_20 : Ref sig .tc := ⟨.hbm, 134, rfl⟩
abbrev main_v71 : Ref sig .tc := ⟨.hbm, 135, rfl⟩
abbrev main_v72 : Ref sig .tc := ⟨.hbm, 136, rfl⟩
abbrev main_cst_21 : Ref sig .tc := ⟨.hbm, 137, rfl⟩
abbrev main_v73 : Ref sig .tc := ⟨.hbm, 138, rfl⟩
abbrev main_v74 : Ref sig .tc := ⟨.hbm, 139, rfl⟩
abbrev main_v75 : Ref sig .tc := ⟨.hbm, 140, rfl⟩
abbrev main_cst_22 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩

abbrev nD : Nat := 1
abbrev τ : Topo := Topo.v7x

variable {F : FTy → Type} [FloatOps F]

class Facts₀ : Prop where
  shapeCasts_S1x500000_S500000 : S1x500000.ShapeCasts S500000
  shapeCasts_S1x2000000_S2000000 : S1x2000000.ShapeCasts S2000000
  bcast_S_S500000 : S_.BroadcastsInDim S500000 (![] : Fin 0 → Fin S500000.rank)
  bcast_S500000_S500000x1_0 : S500000.BroadcastsInDim S500000x1 (![0] : Fin 1 → Fin S500000x1.rank)
  shapeCasts_S1x2000000x2_S2000000x2 : S1x2000000x2.ShapeCasts S2000000x2
  reducesTo_S500000x2_S500000_d1 : S500000x2.ReducesTo [1] S500000
  h_S_ : 0 < S_.numel
  bcast_S500000x1_S500000x2_0_1 : S500000x1.BroadcastsInDim S500000x2 (![0, 1] : Fin 2 → Fin S500000x2.rank)
  bcast_S_S500000x1 : S_.BroadcastsInDim S500000x1 (![] : Fin 0 → Fin S500000x1.rank)
  shapeCasts_S500000x1_S500000x1x1 : S500000x1.ShapeCasts S500000x1x1
  bcast_S_S500000x1x1 : S_.BroadcastsInDim S500000x1x1 (![] : Fin 0 → Fin S500000x1x1.rank)
  bcast_S1_S1x1x1_2 : S1.BroadcastsInDim S1x1x1 (![2] : Fin 1 → Fin S1x1x1.rank)
  bcast_S1x1x1_S500000x1x1_0_1_2 : S1x1x1.BroadcastsInDim S500000x1x1 (![0, 1, 2] : Fin 3 → Fin S500000x1x1.rank)
  reducesTo_S500000x1x1_S500000x1_d2 : S500000x1x1.ReducesTo [2] S500000x1
  reducesTo_S500000x1_S_d0_1 : S500000x1.ReducesTo [0, 1] S_
  shapeCasts_S1x2000000x4_S2000000x4 : S1x2000000x4.ShapeCasts S2000000x4
  bcast_S_S500000x4 : S_.BroadcastsInDim S500000x4 (![] : Fin 0 → Fin S500000x4.rank)
  reducesTo_S500000x4_S500000_d1 : S500000x4.ReducesTo [1] S500000
  reducesTo_S500000_S_d0 : S500000.ReducesTo [0] S_
  gather_S2000000_S500000x1_S500000_n_0_n_n_0_1_1_wf : GatherDims.WF S2000000 S500000x1 S500000 [] [0] [] [0] [] 1 ![1]
  gather_S2000000x2_S500000x1_S500000x2_1_0_n_n_0_1_12_wf : GatherDims.WF S2000000x2 S500000x1 S500000x2 [1] [0] [] [0] [] 1 ![1, 2]
  gather_S500000x2_S500000x1x1_S500000x1_n_1_0_0_1_2_11_wf : GatherDims.WF S500000x2 S500000x1x1 S500000x1 [] [1] [0] [1] [0] 2 ![1, 1]
  gather_S2000000x4_S500000x1_S500000x4_1_0_n_n_0_1_14_wf : GatherDims.WF S2000000x4 S500000x1 S500000x4 [1] [0] [] [0] [] 1 ![1, 4]

variable [Facts₀]

def gather_S2000000_S500000x1_S500000_n_0_n_n_0_1_1 : GatherDims S2000000 S500000x1 S500000 where
  offsetDims := []
  collapsedSliceDims := [0]
  operandBatchingDims := []
  startIndicesBatchingDims := []
  startIndexMap := [0]
  indexVectorDim := 1
  sliceSizes := ![1]
  wf := gather_S2000000_S500000x1_S500000_n_0_n_n_0_1_1_wf
def gather_S2000000x2_S500000x1_S500000x2_1_0_n_n_0_1_12 : GatherDims S2000000x2 S500000x1 S500000x2 where
  offsetDims := [1]
  collapsedSliceDims := [0]
  operandBatchingDims := []
  startIndicesBatchingDims := []
  startIndexMap := [0]
  indexVectorDim := 1
  sliceSizes := ![1, 2]
  wf := gather_S2000000x2_S500000x1_S500000x2_1_0_n_n_0_1_12_wf
def gather_S500000x2_S500000x1x1_S500000x1_n_1_0_0_1_2_11 : GatherDims S500000x2 S500000x1x1 S500000x1 where
  offsetDims := []
  collapsedSliceDims := [1]
  operandBatchingDims := [0]
  startIndicesBatchingDims := [0]
  startIndexMap := [1]
  indexVectorDim := 2
  sliceSizes := ![1, 1]
  wf := gather_S500000x2_S500000x1x1_S500000x1_n_1_0_0_1_2_11_wf
def gather_S2000000x4_S500000x1_S500000x4_1_0_n_n_0_1_14 : GatherDims S2000000x4 S500000x1 S500000x4 where
  offsetDims := [1]
  collapsedSliceDims := [0]
  operandBatchingDims := []
  startIndicesBatchingDims := []
  startIndexMap := [0]
  indexVectorDim := 1
  sliceSizes := ![1, 4]
  wf := gather_S2000000x4_S500000x1_S500000x4_1_0_n_n_0_1_14_wf

class Facts : Prop extends Facts₀ where

variable [Facts]
-- ==== Proof.RpnSpec.lean ====
/-
  The loss both programs compute, as one function of the six argument arrays over the extended reals.

  An anchor n (of 2,000,000) carries four predicted box coordinates, four uncertainties, four ground-truth
  coordinates, two class logits and an integer label; a list of 500,000 words names the sampled anchors.
  Per anchor: var = eps + u*u per coordinate; the attenuated regression term
  sum_k (half*(p-g)^2 / var + half*log var); the background term sum_k 1/var; and the log-softmax of the two logits.
  The loss is  -(S0 / V) + (S1 / nPos + S2 / nNeg)  where S0 sums the log-probability of each sampled anchor's own
  label, S1 the regression term over sampled anchors labelled 1, S2 the background term over the others, and
  nPos, nNeg count the two kinds.

  `result` writes the sums over the 500,000 sampled positions (each read at the anchor its word names);
  `kresult` writes them over all anchors, tile by tile (100 tiles of 20,000), each anchor weighted by the number of
  sampled positions that name it. The two agree when every word is an anchor index and every label is 0 or 1.
-/
import Idealize.ShloMosaic.PureOps.Ideal.Laws
import Idealize.ShloMosaic.Lib.ValueIdx
import Idealize.ShloMosaic.Lib.IdealHost

noncomputable section

open scoped BigOperators

namespace Cert.Rpn

open Idealize.ShloMosaic Idealize.ShloMosaic.ValueIdx

/-- The shapes of the arguments: boxes [1, N, 4], logits [1, N, 2], labels [1, N], sampled indices [1, V]. -/
abbrev SBox : Shape := ⟨3, ![1, 2000000, 4]⟩
abbrev SCls : Shape := ⟨3, ![1, 2000000, 2]⟩
abbrev SLab : Shape := ⟨2, ![1, 2000000]⟩
abbrev SVal : Shape := ⟨2, ![1, 500000]⟩

/-- The variance floor (the f32 nearest 0.001), one half, and the sample count 500000, as the extended reals their words denote. -/
def epsC : EReal := Ideal.ofBits .f32 0x3A83126F#32
def halfC : EReal := Ideal.ofBits .f32 0x3F000000#32
def countC : EReal := Ideal.ofBits .f32 0x48F42400#32

/-! ### One anchor's terms, from its row of each array -/

/-- var = eps + u*u. -/
def varR (u : EReal) : EReal := epsC + u * u

/-- The attenuated regression term: sum over the four coordinates of half*(p-g)^2 / var + half*log var. -/
def posTermR (p u g : Fin 4 → EReal) : EReal :=
  ∑ k : Fin 4, (Ideal.div (halfC * ((p k - g k) * (p k - g k))) (varR (u k)) + halfC * Ideal.log (varR (u k)))

/-- The background term: sum over the four coordinates of 1 / var. -/
def negTermR (u : Fin 4 → EReal) : EReal := ∑ k : Fin 4, Ideal.div 1 (varR (u k))

/-- The larger of the two logits. -/
def rowMaxR (c : Fin 2 → EReal) : EReal := max (c 0) (c 1)

/-- The log-softmax of the two logits at class j. -/
def logpR (c : Fin 2 → EReal) (j : Fin 2) : EReal :=
  (c j - rowMaxR c) - Ideal.log (∑ j' : Fin 2, Ideal.exp (c j' - rowMaxR c))

/-- The five per-anchor summands of the weighted form, from the anchor's weight w, its label l as a number, and its rows:
    the class term, the regression term, the background term, and the two weights. -/
def wt0 (w l : EReal) (c : Fin 2 → EReal) : EReal := (w * (1 - l)) * logpR c 0 + (w * l) * logpR c 1
def wt1 (w l : EReal) (p u g : Fin 4 → EReal) : EReal := (w * l) * posTermR p u g
def wt2 (w l : EReal) (u : Fin 4 → EReal) : EReal := (w * (1 - l)) * negTermR u
def wt3 (w l : EReal) : EReal := w * l
def wt4 (w l : EReal) : EReal := w * (1 - l)

/-! ### Words -/

/-- The anchor a sampled word names: the word read signed, clamped into [0, N-1]. -/
def row (w : BitVec 32) : Fin 2000000 := ⟨min w.toInt.toNat 1999999, by omega⟩

/-- The class a label word selects, and the label as the indicator of class 1. -/
def labIdx (w : BitVec 32) : Fin 2 := if w = 1#32 then 1 else 0
def posf (w : BitVec 32) : EReal := if w = 1#32 then 1 else 0

section
variable (pred unc : FVec Ideal SBox .f32) (cls : FVec Ideal SCls .f32) (gt : FVec Ideal SBox .f32)
  (lab : IVec SLab 32) (vi : IVec SVal 32)

/-- Anchor n's row of a box array and of the logits. -/
def boxRow (a : FVec Ideal SBox .f32) (n : Fin 2000000) : Fin 4 → EReal := fun k => a (ix3 0 n k)
def clsRow (n : Fin 2000000) : Fin 2 → EReal := fun j => cls (ix3 0 n j)

/-- The anchor sampled position v names, and that anchor's label word. -/
def rowAt (v : Fin 500000) : Fin 2000000 := row (vi (ix2 0 v))
def labAt (v : Fin 500000) : BitVec 32 := lab (ix2 0 (rowAt vi v))

/-! ### Over the sampled positions -/

def S0 : EReal := ∑ v : Fin 500000, logpR (clsRow cls (rowAt vi v)) (labIdx (labAt lab vi v))
def S1 : EReal := ∑ v : Fin 500000,
  posTermR (boxRow pred (rowAt vi v)) (boxRow unc (rowAt vi v)) (boxRow gt (rowAt vi v)) * posf (labAt lab vi v)
def S2 : EReal := ∑ v : Fin 500000, negTermR (boxRow unc (rowAt vi v)) * (1 - posf (labAt lab vi v))
def nPos : EReal := ∑ v : Fin 500000, posf (labAt lab vi v)
def nNeg : EReal := ∑ v : Fin 500000, (1 - posf (labAt lab vi v))

/-- The loss, summed over the sampled positions. -/
def result : EReal :=
  -(Ideal.div (S0 cls lab vi) countC)
    + (Ideal.div (S1 pred unc gt lab vi) (nPos lab vi) + Ideal.div (S2 unc lab vi) (nNeg lab vi))

/-! ### Over all anchors, weighted by multiplicity, tile by tile -/

/-- How many sampled positions name anchor n. -/
def weight (n : Fin 2000000) : EReal := ∑ _v ∈ Finset.univ.filter (fun v : Fin 500000 => rowAt vi v = n), (1 : EReal)

/-- Anchor n's label word read as a signed integer. -/
def labf (n : Fin 2000000) : EReal := (((lab (ix2 0 n)).toInt : ℝ) : EReal)

def kterm0 (n : Fin 2000000) : EReal := wt0 (weight vi n) (labf lab n) (clsRow cls n)
def kterm1 (n : Fin 2000000) : EReal := wt1 (weight vi n) (labf lab n) (boxRow pred n) (boxRow unc n) (boxRow gt n)
def kterm2 (n : Fin 2000000) : EReal := wt2 (weight vi n) (labf lab n) (boxRow unc n)
def kterm3 (n : Fin 2000000) : EReal := wt3 (weight vi n) (labf lab n)
def kterm4 (n : Fin 2000000) : EReal := wt4 (weight vi n) (labf lab n)

end

/-- Anchor r of tile t. -/
def anchorOf (t : Fin 100) (r : Fin 20000) : Fin 2000000 := ⟨t.val * 20000 + r.val, by have := t.isLt; have := r.isLt; omega⟩

/-- The sum of f over tile t, and over all tiles. -/
def tileSum (f : Fin 2000000 → EReal) (t : Fin 100) : EReal := ∑ r : Fin 20000, f (anchorOf t r)
def tilesSum (f : Fin 2000000 → EReal) : EReal := ∑ t : Fin 100, tileSum f t

/-- The five per-anchor summands by position: class term, regression term, background term, weight of label 1, weight of the rest. -/
def ktermQ (pred unc : FVec Ideal SBox .f32) (cls : FVec Ideal SCls .f32) (gt : FVec Ideal SBox .f32)
    (lab : IVec SLab 32) (vi : IVec SVal 32) : Fin 5 → Fin 2000000 → EReal
  | 0 => kterm0 cls lab vi
  | 1 => kterm1 pred unc gt lab vi
  | 2 => kterm2 unc lab vi
  | 3 => kterm3 lab vi
  | 4 => kterm4 lab vi

/-- The five sums one tile of 20,000 anchors contributes, from the tile's rows of each array (b0 predictions, b1 uncertainties,
    b2 logits, b3 ground truth), its weights bw and its labels bl as numbers. -/
def blkSum (b0 b1 : Fin 20000 → Fin 4 → EReal) (b2 : Fin 20000 → Fin 2 → EReal) (b3 : Fin 20000 → Fin 4 → EReal)
    (bw bl : Fin 20000 → EReal) : Fin 5 → EReal
  | 0 => ∑ r : Fin 20000, wt0 (bw r) (bl r) (b2 r)
  | 1 => ∑ r : Fin 20000, wt1 (bw r) (bl r) (b0 r) (b1 r) (b3 r)
  | 2 => ∑ r : Fin 20000, wt2 (bw r) (bl r) (b1 r)
  | 3 => ∑ r : Fin 20000, wt3 (bw r) (bl r)
  | 4 => ∑ r : Fin 20000, wt4 (bw r) (bl r)

/-- The loss, summed over all anchors tile by tile with multiplicities. -/
def kresult (pred unc : FVec Ideal SBox .f32) (cls : FVec Ideal SCls .f32) (gt : FVec Ideal SBox .f32)
    (lab : IVec SLab 32) (vi : IVec SVal 32) : EReal :=
  Ideal.div (-(tilesSum (kterm0 cls lab vi))) countC
    + (Ideal.div (tilesSum (kterm1 pred unc gt lab vi)) (tilesSum (kterm3 lab vi))
      + Ideal.div (tilesSum (kterm2 unc lab vi)) (tilesSum (kterm4 lab vi)))

end Cert.Rpn

end
-- ==== Proof.RpnBridge.lean ====
/-
  The weighted, tile-by-tile form of the loss is the form summed over the sampled positions.

  Three facts carry it. (1) The 100 tiles of 20,000 consecutive anchors partition the 2,000,000 anchors, so a sum tile by tile is
  the sum over all anchors. (2) An anchor's weight is the number of sampled positions that name it, a natural number; a natural
  number times x is x added that many times, also on the extended reals, so the sum over anchors of weight times h is the sum over
  sampled positions of h at the anchor named. (3) A label that is 0 or 1, read as a number l, makes (w(1-l))a + (wl)b equal to w
  times the log-probability of the label's own class, and wl, w(1-l) the weights of the indicator of class 1 and of its complement.
  The sign is moved out of the quotient by the nonzero sample count.
-/
import proofs.«413350_j40226663695030_1_alg».proof.Proof.RpnSpec
import Mathlib.Algebra.BigOperators.Fin
import Mathlib.Logic.Equiv.Fin.Basic

noncomputable section

open scoped BigOperators

namespace Cert.Rpn

open Idealize.ShloMosaic Idealize.ShloMosaic.ValueIdx

/-! ### Tiles -/

/-- (tile, row in tile) ↦ anchor is a bijection. -/
def tileEquiv : Fin 100 × Fin 20000 ≃ Fin 2000000 :=
  finProdFinEquiv.trans (finCongr (by norm_num))

theorem tileEquiv_apply (t : Fin 100) (r : Fin 20000) : tileEquiv (t, r) = anchorOf t r := by
  apply Fin.ext
  simp only [tileEquiv, Equiv.trans_apply, finProdFinEquiv_apply_val, finCongr_apply, Fin.coe_cast, anchorOf]
  omega

/-- A sum tile by tile is the sum over all anchors. -/
theorem tilesSum_eq (f : Fin 2000000 → EReal) : tilesSum f = ∑ n : Fin 2000000, f n := by
  unfold tilesSum tileSum
  rw [← Equiv.sum_comp tileEquiv f, Fintype.sum_prod_type]
  exact Finset.sum_congr rfl fun t _ => Finset.sum_congr rfl fun r _ => by rw [tileEquiv_apply]

/-! ### Weights -/

/-- The sum over anchors of weight times h is the sum over sampled positions of h at the anchor named. -/
theorem sum_weight_mul (vi : IVec SVal 32) (h : Fin 2000000 → EReal) :
    ∑ n : Fin 2000000, weight vi n * h n = ∑ v : Fin 500000, h (rowAt vi v) := by
  have hn : ∀ n : Fin 2000000, weight vi n * h n
      = ∑ _v ∈ Finset.univ.filter (fun v : Fin 500000 => rowAt vi v = n), h n := by
    intro n
    unfold weight
    rw [Finset.sum_const, Finset.sum_const, nsmul_one, EReal.nsmul_eq_mul]
  rw [Finset.sum_congr rfl fun n _ => hn n]
  exact Finset.sum_fiberwise' Finset.univ (rowAt vi) h

/-! ### Labels -/

/-- A label word that is 0 or 1 reads as the number 0 or 1: the indicator of class 1. -/
theorem labf_eq_posf (lab : IVec SLab 32) (n : Fin 2000000) (hl : lab (ix2 0 n) = 0#32 ∨ lab (ix2 0 n) = 1#32) :
    labf lab n = posf (lab (ix2 0 n)) := by
  unfold labf posf
  rcases hl with h | h <;> rw [h] <;> simp

/-- With l the indicator of the label's class, the class term is the weight times the log-probability of the label's own class. -/
theorem wt0_eq (w : EReal) (c : Fin 2 → EReal) (b : BitVec 32) (hb : b = 0#32 ∨ b = 1#32) :
    wt0 w (posf b) c = w * logpR c (labIdx b) := by
  unfold wt0 posf labIdx
  rcases hb with h | h <;> rw [h]
  · have h01 : ¬ (0#32 : BitVec 32) = 1#32 := by decide
    rw [if_neg h01, if_neg h01, sub_zero, mul_one, mul_zero, zero_mul, add_zero]
  · rw [if_pos rfl, if_pos rfl]
    have h11 : (1 : EReal) - 1 = 0 := by
      rw [show (1 : EReal) = ((1 : ℝ) : EReal) from rfl, ← EReal.coe_sub, sub_self]; rfl
    rw [h11, mul_zero, zero_mul, zero_add, mul_one]

/-! ### The five sums -/

section
variable (pred unc : FVec Ideal SBox .f32) (cls : FVec Ideal SCls .f32) (gt : FVec Ideal SBox .f32)
  (lab : IVec SLab 32) (vi : IVec SVal 32)
  (hlab : ∀ n : Fin 2000000, lab (ix2 0 n) = 0#32 ∨ lab (ix2 0 n) = 1#32)
include hlab

theorem tot0 : tilesSum (kterm0 cls lab vi) = S0 cls lab vi := by
  rw [tilesSum_eq]
  have : ∀ n : Fin 2000000, kterm0 cls lab vi n = weight vi n * logpR (clsRow cls n) (labIdx (lab (ix2 0 n))) := by
    intro n; unfold kterm0; rw [labf_eq_posf lab n (hlab n)]; exact wt0_eq _ _ _ (hlab n)
  rw [Finset.sum_congr rfl fun n _ => this n,
    sum_weight_mul vi fun n => logpR (clsRow cls n) (labIdx (lab (ix2 0 n)))]
  rfl

theorem tot1 : tilesSum (kterm1 pred unc gt lab vi) = S1 pred unc gt lab vi := by
  rw [tilesSum_eq]
  have : ∀ n : Fin 2000000, kterm1 pred unc gt lab vi n
      = weight vi n * (posTermR (boxRow pred n) (boxRow unc n) (boxRow gt n) * posf (lab (ix2 0 n))) := by
    intro n; unfold kterm1 wt1; rw [labf_eq_posf lab n (hlab n), mul_assoc, mul_comm (posf _)]
  rw [Finset.sum_congr rfl fun n _ => this n,
    sum_weight_mul vi fun n => posTermR (boxRow pred n) (boxRow unc n) (boxRow gt n) * posf (lab (ix2 0 n))]
  rfl

theorem tot2 : tilesSum (kterm2 unc lab vi) = S2 unc lab vi := by
  rw [tilesSum_eq]
  have : ∀ n : Fin 2000000, kterm2 unc lab vi n
      = weight vi n * (negTermR (boxRow unc n) * (1 - posf (lab (ix2 0 n)))) := by
    intro n; unfold kterm2 wt2; rw [labf_eq_posf lab n (hlab n), mul_assoc, mul_comm (1 - posf _)]
  rw [Finset.sum_congr rfl fun n _ => this n,
    sum_weight_mul vi fun n => negTermR (boxRow unc n) * (1 - posf (lab (ix2 0 n)))]
  rfl

theorem tot3 : tilesSum (kterm3 lab vi) = nPos lab vi := by
  rw [tilesSum_eq]
  have : ∀ n : Fin 2000000, kterm3 lab vi n = weight vi n * posf (lab (ix2 0 n)) := by
    intro n; unfold kterm3 wt3; rw [labf_eq_posf lab n (hlab n)]
  rw [Finset.sum_congr rfl fun n _ => this n, sum_weight_mul vi fun n => posf (lab (ix2 0 n))]
  rfl

theorem tot4 : tilesSum (kterm4 lab vi) = nNeg lab vi := by
  rw [tilesSum_eq]
  have : ∀ n : Fin 2000000, kterm4 lab vi n = weight vi n * (1 - posf (lab (ix2 0 n))) := by
    intro n; unfold kterm4 wt4; rw [labf_eq_posf lab n (hlab n)]
  rw [Finset.sum_congr rfl fun n _ => this n, sum_weight_mul vi fun n => 1 - posf (lab (ix2 0 n))]
  rfl

end

/-! ### The sample count -/

/-- The word 0x48F42400 denotes the real 500000. -/
theorem countC_eq : countC = ((500000 : ℝ) : EReal) := by
  unfold countC
  simp [Ideal.ofBits, Ideal.ieee, -EReal.coe_mul]; norm_num

/-- A quotient by the sample count takes the sign out. -/
theorem div_neg_count (a : EReal) : Ideal.div (-a) countC = -(Ideal.div a countC) := by
  rw [countC_eq, Ideal.div_coe (by norm_num : (500000 : ℝ) ≠ 0), Ideal.div_coe (by norm_num : (500000 : ℝ) ≠ 0), EReal.neg_mul]

/-! ### The two forms agree -/

theorem kresult_eq_result (pred unc : FVec Ideal SBox .f32) (cls : FVec Ideal SCls .f32) (gt : FVec Ideal SBox .f32)
    (lab : IVec SLab 32) (vi : IVec SVal 32)
    (hlab : ∀ n : Fin 2000000, lab (ix2 0 n) = 0#32 ∨ lab (ix2 0 n) = 1#32) :
    kresult pred unc cls gt lab vi = result pred unc cls gt lab vi := by
  unfold kresult result
  rw [tot0 cls lab vi hlab, tot1 pred unc gt lab vi hlab, tot2 unc lab vi hlab, tot3 lab vi hlab, tot4 lab vi hlab,
    div_neg_count]

end Cert.Rpn

end
-- ==== Proof.RpnPre.lean ====
/-
  What the precondition says of the two integer arguments: every sampled word is an anchor index (0 ≤ w < 2,000,000 read signed)
  and every label word is 0 or 1.

  The precondition is a conjunction of eight "all" tests; each is an and-reduction over every axis of an array of one-bit
  comparison results, started at 1. A conjunction of bits is 1 only if every bit is 1, and an and-reduction that is 1 met a 1
  at every position. The four tests on the integer arguments compare each word, read signed, against a constant laid out
  over the whole array; read back at one position they bound that word.
-/
import proofs.«413350_j40226663695030_1_alg».proof.Pre_finite_inputs
import proofs.«413350_j40226663695030_1_alg».proof.Proof.Gen.Pre_finite_inputs
import proofs.«413350_j40226663695030_1_alg».proof.Proof.RpnSpec
import Idealize.ShloMosaic.Lib.ReduceAll
import Idealize.ShloMosaic.Lib.StableHlo.Predicate

noncomputable section

open scoped BigOperators

namespace Cert.Rpn

open Idealize.ShloMosaic Idealize.ShloMosaic.ValueIdx

/-- The scalar shape has one index. -/
local instance scalarIdxSubsingleton : Subsingleton Cert.Pre_finite_inputs.S_.Idx :=
  ⟨fun a b => funext fun d => d.elim0⟩

/-! ### One position of a comparison against a constant laid out over the array -/

/-- "x ≥ c" at position i, when it holds, says c ≤ x i read signed. -/
theorem sge_const_at {s : Shape} (hb : Cert.Pre_finite_inputs.S_.BroadcastsInDim s ![]) (x : IVec s 32) (c : BitVec 32)
    (i : s.Idx)
    (h : cmpi .sge x (broadcastInDim s ![] hb (constantI Cert.Pre_finite_inputs.S_ 32 c)) i = 1#1) :
    c.toInt ≤ (x i).toInt := by
  have e : IntOp.cmpi .sge (x i) (broadcastInDim s ![] hb (constantI Cert.Pre_finite_inputs.S_ 32 c) i) = 1#1 := h
  rw [broadcastInDim_scalar_apply] at e
  exact IntOp.cmpi_sge.1 e

/-- "x < c" at position i, when it holds, says x i < c read signed. -/
theorem slt_const_at {s : Shape} (hb : Cert.Pre_finite_inputs.S_.BroadcastsInDim s ![]) (x : IVec s 32) (c : BitVec 32)
    (i : s.Idx)
    (h : cmpi .slt x (broadcastInDim s ![] hb (constantI Cert.Pre_finite_inputs.S_ 32 c)) i = 1#1) :
    (x i).toInt < c.toInt := by
  have e : IntOp.cmpi .slt (x i) (broadcastInDim s ![] hb (constantI Cert.Pre_finite_inputs.S_ 32 c) i) = 1#1 := h
  rw [broadcastInDim_scalar_apply] at e
  exact IntOp.cmpi_slt.1 e

/-- A word w with 0 ≤ w < 2 read signed is the word 0 or the word 1. -/
theorem word_zero_or_one (w : BitVec 32) (h0 : 0 ≤ w.toInt) (h1 : w.toInt < 2) : w = 0#32 ∨ w = 1#32 := by
  have hc : w.toInt = 0 ∨ w.toInt = 1 := by omega
  rcases hc with e | e
  · exact Or.inl (BitVec.eq_of_toInt_eq (by rw [e]; rfl))
  · exact Or.inr (BitVec.eq_of_toInt_eq (by rw [e]; rfl))

/-! ### The conjunction, taken apart from its last conjunct backwards -/

/-- The last stretch of the precondition: the conjunction so far, and "all labels < 2". -/
theorem part2_facts (v30 : IVec Cert.Pre_finite_inputs.S_ 1) (v32 : IVec Cert.Pre_finite_inputs.S1x2000000 1)
    (h : Cert.Pre_finite_inputs.fn_part2 (F := Ideal) v30 v32 ix0 = 1#1) :
    v30 ix0 = 1#1 ∧ ∀ i, v32 i = 1#1 := by
  dsimp only [Cert.Pre_finite_inputs.fn_part2, andi] at h
  obtain ⟨h1, h2⟩ := IntOp.andi_eq_one.1 h
  exact ⟨h1, fun i => Host.reduce_andi_all _ _ _ _ _ h2 i⟩

/-- The middle stretch: of its five conjuncts the last four are the range tests of the sampled words and of the labels. -/
theorem part1_facts (a4 : IVec Cert.Pre_finite_inputs.S1x2000000 32) (a5 : IVec Cert.Pre_finite_inputs.S1x500000 32)
    (v13 : IVec Cert.Pre_finite_inputs.S_ 1) (v16 : IVec Cert.Pre_finite_inputs.S1x2000000x4 1)
    (h : Cert.Pre_finite_inputs.fn_part1 (F := Ideal) a4 a5 v13 v16 ix0 = 1#1) :
    (∀ i, 0 ≤ (a5 i).toInt ∧ (a5 i).toInt < 2000000) ∧ (∀ i, 0 ≤ (a4 i).toInt ∧ (a4 i).toInt < 2) := by
  dsimp only [Cert.Pre_finite_inputs.fn_part1] at h
  obtain ⟨h30, h32⟩ := part2_facts _ _ h
  dsimp only [andi] at h30
  obtain ⟨h26, h29⟩ := IntOp.andi_eq_one.1 h30
  obtain ⟨h22, h25⟩ := IntOp.andi_eq_one.1 h26
  obtain ⟨h18, h21⟩ := IntOp.andi_eq_one.1 h22
  refine ⟨fun i => ⟨?_, ?_⟩, fun i => ⟨?_, ?_⟩⟩
  · exact sge_const_at _ a5 0#32 i (Host.reduce_andi_all _ _ _ _ _ h21 i)
  · exact slt_const_at _ a5 2000000#32 i (Host.reduce_andi_all _ _ _ _ _ h25 i)
  · exact sge_const_at _ a4 0#32 i (Host.reduce_andi_all _ _ _ _ _ h29 i)
  · exact slt_const_at _ a4 2#32 i (h32 i)

theorem pre_facts (x0 x1 : FVec Ideal SBox .f32) (x2 : FVec Ideal SCls .f32) (x3 : FVec Ideal SBox .f32)
    (x4 : IVec SLab 32) (x5 : IVec SVal 32)
    (h : Cert.Pre_finite_inputs.fn (F := Ideal) x0 x1 x2 x3 x4 x5 = fun _ => 1#1) :
    (∀ v : Fin 500000, 0 ≤ (x5 (ix2 0 v)).toInt ∧ (x5 (ix2 0 v)).toInt < 2000000)
      ∧ (∀ n : Fin 2000000, x4 (ix2 0 n) = 0#32 ∨ x4 (ix2 0 n) = 1#32) := by
  have h0 := congrFun h ix0
  dsimp only [Cert.Pre_finite_inputs.fn] at h0
  obtain ⟨h5, h4⟩ := part1_facts x4 x5 _ _ h0
  exact ⟨fun v => h5 (ix2 0 v), fun n => word_zero_or_one _ (h4 (ix2 0 n)).1 (h4 (ix2 0 n)).2⟩

end Cert.Rpn

end
-- ==== Proof.LibGatherRead.lean ====
/-
  Reading three kinds of gather, a two-column maximum and an all-ones conjunction at an index, at any extents.

  A gather reads the operand at an index made, axis by axis, of a start index (a word of the index array, read signed and
  clamped so that the slice fits), a batching coordinate and an offset coordinate. For the row gather x[idx] of a table of rows
  the row is the clamped word and the column is the result's column; for the gather along the last axis (one column per
  row, the row given by the result's row) the row is the result's row and the column is the clamped word.
-/
import Idealize.ShloMosaic.Lib.ValueIdx
import Idealize.ShloMosaic.Lib.ValueIdxRank1
import Idealize.ShloMosaic.Lib.IdealHost
import Idealize.ShloMosaic.Lib.ReduceAll
import Idealize.ShloMosaic.Lib.StableHlo.Predicate
import Idealize.ShloMosaic.PureOps.Ideal.Laws

noncomputable section

open scoped BigOperators

namespace Cert.Rpn

open Idealize.ShloMosaic Idealize.ShloMosaic.ValueIdx

/-! ### The row gather: rows of an [N, K] table picked by a [V, 1] column of words -/

/-- The dimension numbers of x[idx] for a table of rows: the row axis collapsed and start-indexed, the column axis an offset axis. -/
abbrev rowsDims (N K V : Nat)
    (wf : GatherDims.WF ⟨2, ![N, K]⟩ ⟨2, ![V, 1]⟩ ⟨2, ![V, K]⟩ [1] [0] [] [0] [] 1 ![1, K]) :
    GatherDims ⟨2, ![N, K]⟩ ⟨2, ![V, 1]⟩ ⟨2, ![V, K]⟩ where
  offsetDims := [1]
  collapsedSliceDims := [0]
  operandBatchingDims := []
  startIndicesBatchingDims := []
  startIndexMap := [0]
  indexVectorDim := 1
  sliceSizes := ![1, K]
  wf := wf

/-- Result (v, k) of the row gather is the table at (the word at (v, 0) read signed and clamped into [0, N-1], k). -/
theorem gather_rows_apply {α : Type} {N K V w : Nat} (hN : 0 < N)
    (wf : GatherDims.WF ⟨2, ![N, K]⟩ ⟨2, ![V, 1]⟩ ⟨2, ![V, K]⟩ [1] [0] [] [0] [] 1 ![1, K])
    (x : (⟨2, ![N, K]⟩ : Shape).Idx → α) (idx : IVec ⟨2, ![V, 1]⟩ w) (v : Fin V) (k : Fin K) :
    Host.gather (rowsDims N K V wf) x idx (ix2 v k)
      = x (ix2 (⟨min (idx (ix2 v 0)).toInt.toNat (N - 1), by omega⟩ : Fin N) k) := by
  unfold Host.gather
  congr 1
  funext a
  refine Fin.ext ?_
  match a with
  | ⟨0, _⟩ =>
    show (rowsDims N K V wf).start (ix2 v k) idx 0 + (rowsDims N K V wf).batchCoord (ix2 v k) 0
      + (rowsDims N K V wf).offCoord (ix2 v k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N K V wf).startIndexMap from List.mem_singleton.mpr rfl)]
    have hsi : (rowsDims N K V wf).siIdx (ix2 v k) ⟨List.idxOf (0 : Fin 2) (rowsDims N K V wf).startIndexMap,
        List.idxOf_lt_length_iff.2 (List.mem_singleton.mpr rfl)⟩ = ix2 v 0 := by
      funext b; refine Fin.ext ?_
      match b with
      | ⟨0, _⟩ => rfl
      | ⟨1, _⟩ => rfl
    rw [hsi]
    rfl
  | ⟨1, _⟩ =>
    show (rowsDims N K V wf).start (ix2 v k) idx 1 + (rowsDims N K V wf).batchCoord (ix2 v k) 1
      + (rowsDims N K V wf).offCoord (ix2 v k) 1 = k.val
    rw [GatherDims.batchCoord_eq_zero _ _ _ List.not_mem_nil]
    have h1 : (1 : Fin 2) ∉ (rowsDims N K V wf).startIndexMap :=
      show (1 : Fin 2) ∉ ([0] : List (Fin 2)) from by decide
    have hk : (1 : Fin 2) ∈ (rowsDims N K V wf).sKept :=
      (GatherDims.mem_sKept _ _).mpr ⟨show (1 : Fin 2) ∉ ([0] : List (Fin 2)) from by decide, List.not_mem_nil⟩
    unfold GatherDims.start GatherDims.offCoord
    rw [dif_neg h1, dif_pos hk]
    simp only [Nat.zero_add]
    rfl

/-! ### The gather along the last axis: one entry of each row of a [V, C] array, its column picked by a [V, 1, 1] array of words -/

/-- The dimension numbers of take_along_axis over the last axis: the row axis batching on both sides, the column axis collapsed and
    start-indexed, the index vector on the last axis of the indices. -/
abbrev alongDims (V C : Nat)
    (wf : GatherDims.WF ⟨2, ![V, C]⟩ ⟨3, ![V, 1, 1]⟩ ⟨2, ![V, 1]⟩ [] [1] [0] [1] [0] 2 ![1, 1]) :
    GatherDims ⟨2, ![V, C]⟩ ⟨3, ![V, 1, 1]⟩ ⟨2, ![V, 1]⟩ where
  offsetDims := []
  collapsedSliceDims := [1]
  operandBatchingDims := [0]
  startIndicesBatchingDims := [0]
  startIndexMap := [1]
  indexVectorDim := 2
  sliceSizes := ![1, 1]
  wf := wf

/-- Result (v, 0) of the gather along the last axis is the array at (v, the word at (v, 0, 0) read signed and clamped into [0, C-1]). -/
theorem gather_along_apply {α : Type} {V C w : Nat} (hC : 0 < C)
    (wf : GatherDims.WF ⟨2, ![V, C]⟩ ⟨3, ![V, 1, 1]⟩ ⟨2, ![V, 1]⟩ [] [1] [0] [1] [0] 2 ![1, 1])
    (x : (⟨2, ![V, C]⟩ : Shape).Idx → α) (idx : IVec ⟨3, ![V, 1, 1]⟩ w) (v : Fin V) :
    Host.gather (alongDims V C wf) x idx (ix2 v 0)
      = x (ix2 v (⟨min (idx (ix3 v 0 0)).toInt.toNat (C - 1), by omega⟩ : Fin C)) := by
  unfold Host.gather
  congr 1
  funext a
  refine Fin.ext ?_
  match a with
  | ⟨0, _⟩ =>
    show (alongDims V C wf).start (ix2 v 0) idx 0 + (alongDims V C wf).batchCoord (ix2 v 0) 0
      + (alongDims V C wf).offCoord (ix2 v 0) 0 = v.val
    have h0 : (0 : Fin 2) ∈ (alongDims V C wf).operandBatchingDims := List.mem_singleton.mpr rfl
    rw [GatherDims.start_batching _ _ _ _ h0,
      GatherDims.offCoord_eq_zero _ _ _ (fun h => ((GatherDims.mem_sKept _ _).mp h).2 h0)]
    unfold GatherDims.batchCoord
    rw [dif_pos h0]
    simp only [Nat.zero_add, Nat.add_zero]
    rfl
  | ⟨1, _⟩ =>
    show (alongDims V C wf).start (ix2 v 0) idx 1 + (alongDims V C wf).batchCoord (ix2 v 0) 1
      + (alongDims V C wf).offCoord (ix2 v 0) 1 = _
    rw [GatherDims.batchCoord_eq_zero _ _ _ (show (1 : Fin 2) ∉ ([0] : List (Fin 2)) from by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims V C wf).startIndexMap from List.mem_singleton.mpr rfl)]
    have hsi : (alongDims V C wf).siIdx (ix2 v 0) ⟨List.idxOf (1 : Fin 2) (alongDims V C wf).startIndexMap,
        List.idxOf_lt_length_iff.2 (List.mem_singleton.mpr rfl)⟩ = ix3 v 0 0 := by
      funext b; refine Fin.ext ?_
      match b with
      | ⟨0, _⟩ => rfl
      | ⟨1, _⟩ => rfl
      | ⟨2, _⟩ => rfl
    rw [hsi]
    rfl

/-! ### The maximum over two columns, and a conjunction of ones -/

/-- The reduced index v with column k put back is (v, k). -/
theorem lift_col {V : Nat} (h : (⟨2, ![V, 2]⟩ : Shape).Reduces [1] (⟨1, ![V]⟩ : Shape)) (v : Fin V)
    (k : Fin ((⟨2, ![V, 2]⟩ : Shape).size 1)) : h.lift (ix1 v) k = ix2 v (⟨k.val, k.isLt⟩ : Fin 2) := by
  funext c; apply Fin.ext
  fin_cases c <;> rfl

/-- From -∞ the reduce with a maximum body over the two columns of row v is the larger of the row's two entries. -/
theorem hostReduce_max_two {V : Nat} {u : Shape} (x : FVec Ideal ⟨2, ![V, 2]⟩ .f32) (init : u.Idx → Ideal .f32)
    (h' : (⟨2, ![V, 2]⟩ : Shape).ReducesTo [1] (⟨1, ![V]⟩ : Shape))
    (h : (⟨2, ![V, 2]⟩ : Shape).Reduces [1] (⟨1, ![V]⟩ : Shape)) (hu : 0 < u.numel)
    (hinit : init (Shape.Idx.first hu) = (⊥ : EReal)) (v : Fin V) :
    Host.reduce FloatOps.maximumf x init h' hu (ix1 v) = max (x (ix2 v 0)) (x (ix2 v 1)) := by
  rw [Host.reduce_eq_fold_single FloatOps.maximumf x _ h' h hu, hinit]
  have hf : (x ∘ h.lift (ix1 v)) = fun k : Fin 2 => x (ix2 v k) := funext fun k => congrArg x (lift_col h v k)
  show Finset.fold (max : EReal → EReal → EReal) ⊥ (x ∘ h.lift (ix1 v)) (Finset.univ : Finset (Fin 2)) = _
  rw [hf]
  simp only [Fin.univ_succ, Finset.fold_cons, Finset.fold_map, Finset.univ_unique, Finset.fold_singleton]
  show max (x (ix2 v 0)) (max (x (ix2 v 1)) ⊥) = _
  rw [max_bot_right]

/-- A reduce with an "and" body started at 1 over an array of ones is 1. -/
theorem hostReduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  generalize (((List.finRange s.numel).map s.rowMajor.symm).filter fun i => h.drop i = j) = l
  induction l with
  | nil => rfl
  | cons a l ih => rw [List.foldl_cons, hx a]; exact ih

/-! ### Words -/

/-- A selection on "w < 0" takes its second branch when the word is non-negative (the wrap-around of a negative index leaves
    such a word alone). -/
theorem select_nonneg {α : Type} (w : BitVec 32) (a b : α) (h : 0 ≤ w.toInt) :
    Scalar.select (IntOp.cmpi .slt w 0#32) a b = b := by
  unfold Scalar.select
  rw [if_neg]
  intro e
  have h1 := IntOp.cmpi_slt.1 e
  have h0 : (0#32 : BitVec 32).toInt = 0 := by decide
  omega

/-- The word 0 or 1 passes the range test 0 ≤ w ∧ w ≤ 1. -/
theorem in_range_bit (w : BitVec 32) (h : w = 0#32 ∨ w = 1#32) :
    IntOp.andi (IntOp.cmpi .sge w 0#32) (IntOp.cmpi .sle w 1#32) = 1#1 := by
  rcases h with rfl | rfl <;> decide

/-- The test "w = 1" widened to a float is the indicator of w = 1. -/
theorem uitofp_eq_one (w : BitVec 32) :
    FloatOps.uitofp (F := Ideal) .f32 (IntOp.cmpi .eq w 1#32) = if w = 1#32 then (1 : EReal) else 0 := by
  by_cases h : w = 1#32
  · rw [if_pos h, IntOp.cmpi_eq.2 h]
    show (((1#1 : BitVec 1).toNat : ℝ) : EReal) = 1
    simp
  · rw [if_neg h]
    have h0 : IntOp.cmpi .eq w 1#32 = 0#1 := by
      rcases BitVec.eq_zero_or_eq_one (IntOp.cmpi .eq w 1#32) with e | e
      · exact e
      · exact absurd (IntOp.cmpi_eq.1 e) h
    rw [h0]
    show (((0#1 : BitVec 1).toNat : ℝ) : EReal) = 0
    simp

/-! ### Sums over a column and over a vector -/

/-- A sum over the indices of a [V, 1] column is the sum over its rows. -/
theorem sum_col {M : Type*} [AddCommMonoid M] {V : Nat} (f : (⟨2, ![V, 1]⟩ : Shape).Idx → M) :
    ∑ j, f j = ∑ v : Fin V, f (ix2 v 0) := by
  rw [sum_idx2]
  exact Finset.sum_congr rfl fun v _ => Fin.sum_univ_one _

/-- A sum over the indices of a vector of V entries is the sum over its entries. -/
theorem sum_vec {M : Type*} [AddCommMonoid M] {V : Nat} (f : (⟨1, ![V]⟩ : Shape).Idx → M) :
    ∑ j, f j = ∑ v : Fin V, f (ix1 v) :=
  (Equiv.sum_comp (idxEquiv1 (n := V)).symm f).symm

end Cert.Rpn

end
-- ==== Proof.RpnRef.lean ====
/-
  The reference program's result is the loss summed over the sampled positions, when every sampled word is an anchor index
  and every label is 0 or 1.

  The program is read one operation at a time at an index. A sampled word that is an anchor index passes the wrap-around of
  negative indices unchanged and its clamp into [0, N-1] is the anchor it names, so each row gather reads that anchor's row.
  The log-softmax of a row of two logits is read through its maximum (a reduce over the two columns from -∞) and the sum of
  the two exponentials. A label that is 0 or 1 passes the wrap-around and the range mask of the gather along the last axis, which
  then reads the log-probability of the label's class. The remaining operations are pointwise, or sums over the four coordinates,
  or sums over the sampled positions.
-/
import proofs.«413350_j40226663695030_1_alg».proof.Proof.RefRead
import proofs.«413350_j40226663695030_1_alg».proof.Proof.RpnSpec
import proofs.«413350_j40226663695030_1_alg».proof.Proof.LibGatherRead

noncomputable section

open scoped BigOperators

namespace Cert.Rpn

open Idealize.ShloMosaic Idealize.ShloMosaic.ValueIdx
open Cert.ReferenceIdeal Cert.ReferenceIdeal.Gen Cert.ReferenceIdeal.ReadCopy

/-! ### Index maps of the layout operations, at coordinates -/

theorem idx_v0_at (v : Fin 500000) : idx_main_v0 (ix1 v) = ix2 0 v := by
  funext a
  match a with
  | ⟨0, _⟩ => rfl
  | ⟨1, _⟩ => exact Fin.ext (Nat.mod_eq_of_lt v.isLt)

theorem idx_v1_at (n : Fin 2000000) : idx_main_v1 (ix1 n) = ix2 0 n := by
  funext a
  match a with
  | ⟨0, _⟩ => rfl
  | ⟨1, _⟩ => exact Fin.ext (Nat.mod_eq_of_lt n.isLt)

theorem idx_v7_at (v : Fin 500000) : idx_main_v7 (ix2 v 0) = ix1 v := by
  funext a; match a with | ⟨0, _⟩ => rfl
theorem idx_v15_at (v : Fin 500000) : idx_main_v15 (ix2 v 0) = ix1 v := by
  funext a; match a with | ⟨0, _⟩ => rfl
theorem idx_v29_at (v : Fin 500000) : idx_main_v29 (ix2 v 0) = ix1 v := by
  funext a; match a with | ⟨0, _⟩ => rfl
theorem idx_v37_at (v : Fin 500000) : idx_main_v37 (ix2 v 0) = ix1 v := by
  funext a; match a with | ⟨0, _⟩ => rfl
theorem idx_v45_at (v : Fin 500000) : idx_main_v45 (ix2 v 0) = ix1 v := by
  funext a; match a with | ⟨0, _⟩ => rfl
theorem idx_v18_at (v : Fin 500000) : idx_main_v18 (ix2 v 0) = ix1 v := by
  funext a; match a with | ⟨0, _⟩ => rfl

theorem idx_v9_at (r : Fin 2000000) (j : Fin 2) : idx_main_v9 (ix2 r j) = ix3 0 r j := by
  funext a
  match a with
  | ⟨0, _⟩ => rfl
  | ⟨1, _⟩ => exact Fin.ext (by show (r.val * 2 + j.val) / 2 % 2000000 = r.val; have := r.isLt; have := j.isLt; omega)
  | ⟨2, _⟩ => exact Fin.ext (by show (r.val * 2 + j.val) % 2 = j.val; have := j.isLt; omega)

theorem idx_v23_at (r : Fin 2000000) (k : Fin 4) : idx_main_v23 (ix2 r k) = ix3 0 r k := by
  funext a
  match a with
  | ⟨0, _⟩ => rfl
  | ⟨1, _⟩ => exact Fin.ext (by show (r.val * 4 + k.val) / 4 % 2000000 = r.val; have := r.isLt; have := k.isLt; omega)
  | ⟨2, _⟩ => exact Fin.ext (by show (r.val * 4 + k.val) % 4 = k.val; have := k.isLt; omega)

theorem idx_v31_at (r : Fin 2000000) (k : Fin 4) : idx_main_v31 (ix2 r k) = ix3 0 r k := by
  funext a
  match a with
  | ⟨0, _⟩ => rfl
  | ⟨1, _⟩ => exact Fin.ext (by show (r.val * 4 + k.val) / 4 % 2000000 = r.val; have := r.isLt; have := k.isLt; omega)
  | ⟨2, _⟩ => exact Fin.ext (by show (r.val * 4 + k.val) % 4 = k.val; have := k.isLt; omega)

theorem idx_v39_at (r : Fin 2000000) (k : Fin 4) : idx_main_v39 (ix2 r k) = ix3 0 r k := by
  funext a
  match a with
  | ⟨0, _⟩ => rfl
  | ⟨1, _⟩ => exact Fin.ext (by show (r.val * 4 + k.val) / 4 % 2000000 = r.val; have := r.isLt; have := k.isLt; omega)
  | ⟨2, _⟩ => exact Fin.ext (by show (r.val * 4 + k.val) % 4 = k.val; have := k.isLt; omega)

/-! ### The three gathers of the program, at coordinates -/

/-- The row gather of a table of 2,000,000 rows of four: result (v, k) is the table at (the anchor the word at (v, 0) names, k). -/
theorem rows4_at {α : Type} (T : S2000000x4.Idx → α) (idx : IVec S500000x1 32) (v : Fin 500000) (k : Fin 4) :
    Host.gather gather_S2000000x4_S500000x1_S500000x4_1_0_n_n_0_1_14 T idx (ix2 v k) = T (ix2 (row (idx (ix2 v 0))) k) :=
  gather_rows_apply (N := 2000000) (K := 4) (V := 500000) (by decide)
    Gen.gather_S2000000x4_S500000x1_S500000x4_1_0_n_n_0_1_14_wf T idx v k

/-- The same for a table of rows of two. -/
theorem rows2_at {α : Type} (T : S2000000x2.Idx → α) (idx : IVec S500000x1 32) (v : Fin 500000) (j : Fin 2) :
    Host.gather gather_S2000000x2_S500000x1_S500000x2_1_0_n_n_0_1_12 T idx (ix2 v j) = T (ix2 (row (idx (ix2 v 0))) j) :=
  gather_rows_apply (N := 2000000) (K := 2) (V := 500000) (by decide)
    Gen.gather_S2000000x2_S500000x1_S500000x2_1_0_n_n_0_1_12_wf T idx v j

/-- The gather of a vector of 2,000,000 words: result v is the vector at the anchor the word at (v, 0) names. -/
theorem take1_at {α : Type} (T : S2000000.Idx → α) (idx : IVec S500000x1 32) (v : Fin 500000) :
    Host.gather gather_S2000000_S500000x1_S500000_n_0_n_n_0_1_1 T idx (ix1 v) = T (ix1 (row (idx (ix2 v 0)))) := by
  have hv : (ix1 v : S500000.Idx) = Shape.Idx.ofFin v := funext fun a => by
    match a with | ⟨0, _⟩ => rfl
  have hp : (StableHlo.Predicate.ixP v : S500000x1.Idx) = ix2 v 0 := funext fun a => by
    match a with | ⟨0, _⟩ => rfl | ⟨1, _⟩ => rfl
  rw [hv, StableHlo.Predicate.gather_take gather_S2000000_S500000x1_S500000_n_0_n_n_0_1_1 rfl rfl rfl rfl T idx v (by decide)]
  refine congrArg T (funext fun a => ?_)
  match a with
  | ⟨0, _⟩ =>
    exact Fin.ext (by
      show min (idx (StableHlo.Predicate.ixP v)).toInt.toNat (2000000 - 1) = min (idx (ix2 v 0)).toInt.toNat 1999999
      rw [hp])

/-- The class a label word that is 0 or 1 selects, as the clamp of the word into [0, 1]. -/
def clamp2 (w : BitVec 32) : Fin 2 := ⟨min w.toInt.toNat 1, by omega⟩

theorem clamp2_lab (w : BitVec 32) (h : w = 0#32 ∨ w = 1#32) : clamp2 w = labIdx w := by
  rcases h with rfl | rfl <;> decide

/-- The gather along the last axis of an array of 500,000 rows of two: result (v, 0) is the array at (v, the word at (v, 0, 0) clamped). -/
theorem along_at {α : Type} (T : S500000x2.Idx → α) (idx : IVec S500000x1x1 32) (v : Fin 500000) :
    Host.gather gather_S500000x2_S500000x1x1_S500000x1_n_1_0_0_1_2_11 T idx (ix2 v 0) = T (ix2 v (clamp2 (idx (ix3 v 0 0)))) :=
  gather_along_apply (V := 500000) (C := 2) (by decide)
    Gen.gather_S500000x2_S500000x1x1_S500000x1_n_1_0_0_1_2_11_wf T idx v

section
variable (x0 x1 : FVec Ideal SBox .f32) (x2 : FVec Ideal SCls .f32) (x3 : FVec Ideal SBox .f32)
  (x4 : IVec SLab 32) (x5 : IVec SVal 32)
  (hvi : ∀ v : Fin 500000, 0 ≤ (x5 (ix2 0 v)).toInt ∧ (x5 (ix2 0 v)).toInt < 2000000)
  (hlab : ∀ n : Fin 2000000, x4 (ix2 0 n) = 0#32 ∨ x4 (ix2 0 n) = 1#32)

/-! ### The sampled words, after the wrap-around of negative indices -/

theorem word_v0 (v : Fin 500000) : val_main_v0 (F := Ideal) x5 (ix1 v) = x5 (ix2 0 v) := by
  rw [val_main_v0_apply, idx_v0_at]

include hvi in
/-- The wrap-around (select (w < 0) (w + N) w, with the zero and the extent laid out over the vector) leaves a sampled word alone. -/
theorem norm_chain (z n : IVec S500000 32) (hz : ∀ i, z i = 0#32) (v : Fin 500000) :
    select (cmpi .slt (val_main_v0 (F := Ideal) x5) z) (addi (val_main_v0 (F := Ideal) x5) n) (val_main_v0 (F := Ideal) x5) (ix1 v)
      = x5 (ix2 0 v) := by
  show Scalar.select (IntOp.cmpi .slt (val_main_v0 (F := Ideal) x5 (ix1 v)) (z (ix1 v))) _ (val_main_v0 (F := Ideal) x5 (ix1 v)) = _
  rw [hz, word_v0]
  exact select_nonneg _ _ _ (hvi v).1

include hvi in
theorem word_v7 (v : Fin 500000) : val_main_v7 (F := Ideal) x5 (ix2 v 0) = x5 (ix2 0 v) := by
  rw [val_main_v7_apply, idx_v7_at]
  exact norm_chain x5 hvi (val_main_v2 (F := Ideal)) (val_main_v4 (F := Ideal)) (fun i => by rw [val_main_v2_apply]; rfl) v

include hvi in
theorem word_v15 (v : Fin 500000) : val_main_v15 (F := Ideal) x5 (ix2 v 0) = x5 (ix2 0 v) := by
  rw [val_main_v15_apply, idx_v15_at]
  exact norm_chain x5 hvi (val_main_v10 (F := Ideal)) (val_main_v12 (F := Ideal)) (fun i => by rw [val_main_v10_apply]; rfl) v

include hvi in
theorem word_v29 (v : Fin 500000) : val_main_v29 (F := Ideal) x5 (ix2 v 0) = x5 (ix2 0 v) := by
  rw [val_main_v29_apply, idx_v29_at]
  exact norm_chain x5 hvi (val_main_v24 (F := Ideal)) (val_main_v26 (F := Ideal)) (fun i => by rw [val_main_v24_apply]; rfl) v

include hvi in
theorem word_v37 (v : Fin 500000) : val_main_v37 (F := Ideal) x5 (ix2 v 0) = x5 (ix2 0 v) := by
  rw [val_main_v37_apply, idx_v37_at]
  exact norm_chain x5 hvi (val_main_v32 (F := Ideal)) (val_main_v34 (F := Ideal)) (fun i => by rw [val_main_v32_apply]; rfl) v

include hvi in
theorem word_v45 (v : Fin 500000) : val_main_v45 (F := Ideal) x5 (ix2 v 0) = x5 (ix2 0 v) := by
  rw [val_main_v45_apply, idx_v45_at]
  exact norm_chain x5 hvi (val_main_v40 (F := Ideal)) (val_main_v42 (F := Ideal)) (fun i => by rw [val_main_v40_apply]; rfl) v

/-! ### The five row gathers -/

include hvi in
theorem lab_v8 (v : Fin 500000) : val_main_v8 (F := Ideal) x4 x5 (ix1 v) = labAt x4 x5 v := by
  unfold val_main_v8
  rw [take1_at, word_v7 x5 hvi v, val_main_v1_apply, idx_v1_at]
  rfl

include hvi in
theorem cls_v16 (v : Fin 500000) (j : Fin 2) : val_main_v16 (F := Ideal) x2 x5 (ix2 v j) = clsRow x2 (rowAt x5 v) j := by
  unfold val_main_v16
  rw [rows2_at, word_v15 x5 hvi v, val_main_v9_apply, idx_v9_at]
  rfl

include hvi in
theorem box_v30 (v : Fin 500000) (k : Fin 4) : val_main_v30 (F := Ideal) x0 x5 (ix2 v k) = boxRow x0 (rowAt x5 v) k := by
  unfold val_main_v30
  rw [rows4_at, word_v29 x5 hvi v, val_main_v23_apply, idx_v23_at]
  rfl

include hvi in
theorem box_v38 (v : Fin 500000) (k : Fin 4) : val_main_v38 (F := Ideal) x1 x5 (ix2 v k) = boxRow x1 (rowAt x5 v) k := by
  unfold val_main_v38
  rw [rows4_at, word_v37 x5 hvi v, val_main_v31_apply, idx_v31_at]
  rfl

include hvi in
theorem box_v46 (v : Fin 500000) (k : Fin 4) : val_main_v46 (F := Ideal) x3 x5 (ix2 v k) = boxRow x3 (rowAt x5 v) k := by
  unfold val_main_v46
  rw [rows4_at, word_v45 x5 hvi v, val_main_v39_apply, idx_v39_at]
  rfl

/-! ### The log-softmax of the two logits -/

theorem idx_c0v3_at (v : Fin 500000) : idx_main_call0_v3 (ix2 v 0) = ix1 v := by
  funext a; match a with | ⟨0, _⟩ => rfl
theorem idx_c0v8_at (v : Fin 500000) : idx_main_call0_v8 (ix2 v 0) = ix1 v := by
  funext a; match a with | ⟨0, _⟩ => rfl
theorem idx_c0v4_at (v : Fin 500000) (j : Fin 2) : idx_main_call0_v4 (ix2 v j) = ix2 v 0 := by
  funext a; match a with | ⟨0, _⟩ => rfl | ⟨1, _⟩ => rfl
theorem idx_c0v10_at (v : Fin 500000) (j : Fin 2) : idx_main_call0_v10 (ix2 v j) = ix2 v 0 := by
  funext a; match a with | ⟨0, _⟩ => rfl | ⟨1, _⟩ => rfl
theorem idx_c0v7_at (v : Fin 500000) (k : Fin 2) : idx_main_call0_v7 (ix1 v) k = ix2 v k := by
  funext a; match a with | ⟨0, _⟩ => rfl | ⟨1, _⟩ => rfl

/-- The word of -∞ is the bottom of the extended reals. -/
theorem negInf_eq_bot : Ideal.ofBits .f32 0xFF800000#32 = (⊥ : EReal) := by simp [Ideal.ofBits, Ideal.ieee]

include hvi in
theorem max_c0v0 (v : Fin 500000) :
    val_main_call0_v0 (F := Ideal) x2 x5 (ix1 v) = rowMaxR (clsRow x2 (rowAt x5 v)) := by
  unfold val_main_call0_v0
  rw [hostReduce_max_two (val_main_v16 (F := Ideal) x2 x5) (val_main_call0_cst (F := Ideal)) reducesTo_S500000x2_S500000_d1
    (by decide) h_S_ negInf_eq_bot v, cls_v16 x2 x5 hvi, cls_v16 x2 x5 hvi]
  rfl

include hvi in
theorem max_c0v2 (v : Fin 500000) :
    val_main_call0_v2 (F := Ideal) x2 x5 (ix1 v) = rowMaxR (clsRow x2 (rowAt x5 v)) := by
  rw [val_main_call0_v2_apply, val_main_call0_v1_apply, val_main_call0_cst_0_apply, max_c0v0 x2 x5 hvi v]
  show max (Ideal.ofBits .f32 0xFF800000#32) _ = _
  rw [negInf_eq_bot, max_bot_left]

include hvi in
theorem sub_c0v5 (v : Fin 500000) (j : Fin 2) :
    val_main_call0_v5 (F := Ideal) x2 x5 (ix2 v j) = clsRow x2 (rowAt x5 v) j - rowMaxR (clsRow x2 (rowAt x5 v)) := by
  rw [val_main_call0_v5_apply, cls_v16 x2 x5 hvi, val_main_call0_v4_apply, idx_c0v4_at, val_main_call0_v3_apply, idx_c0v3_at,
    max_c0v2 x2 x5 hvi]
  rfl

include hvi in
theorem sum_c0v7 (v : Fin 500000) :
    val_main_call0_v7 (F := Ideal) x2 x5 (ix1 v)
      = ∑ j' : Fin 2, Ideal.exp (clsRow x2 (rowAt x5 v) j' - rowMaxR (clsRow x2 (rowAt x5 v))) := by
  rw [val_main_call0_v7_apply]
  simp only [val_main_call0_cst_1_apply, Ideal.ofBits_def, Ideal.ofBits_zero_f32, zero_add]
  refine Finset.sum_congr rfl fun k _ => ?_
  rw [idx_c0v7_at, val_main_call0_v6_apply, sub_c0v5 x2 x5 hvi]
  rfl

include hvi in
theorem logp_v17 (v : Fin 500000) (j : Fin 2) :
    val_main_v17 (F := Ideal) x2 x5 (ix2 v j) = logpR (clsRow x2 (rowAt x5 v)) j := by
  rw [val_main_v17_apply, sub_c0v5 x2 x5 hvi, val_main_call0_v10_apply, idx_c0v10_at, val_main_call0_v9_apply,
    val_main_call0_v8_apply, idx_c0v8_at, sum_c0v7 x2 x5 hvi]
  rfl

/-! ### The log-probability of each sampled anchor's own label -/

theorem idx_c1v5_at (v : Fin 500000) : idx_main_call1_v5 (ix3 v 0 0) = ix2 v 0 := by
  funext a
  match a with
  | ⟨0, _⟩ => exact Fin.ext (by show ((v.val * 1 + 0) * 1 + 0) / 1 = v.val; omega)
  | ⟨1, _⟩ => rfl

/-- Every index of the [500000, 1, 1] index array is (v, 0, 0). -/
theorem eq_ix3_col (i : S500000x1x1.Idx) : i = ix3 (i 0) 0 0 := by
  funext a
  match a with
  | ⟨0, _⟩ => rfl
  | ⟨1, h1⟩ =>
    exact Fin.ext (by have h : (i ⟨1, h1⟩).val < 1 := (i ⟨1, h1⟩).isLt; show (i ⟨1, h1⟩).val = 0; omega)
  | ⟨2, h2⟩ =>
    exact Fin.ext (by have h : (i ⟨2, h2⟩).val < 1 := (i ⟨2, h2⟩).isLt; show (i ⟨2, h2⟩).val = 0; omega)

include hlab in
theorem lab_nonneg (v : Fin 500000) : 0 ≤ (labAt x4 x5 v).toInt := by
  unfold labAt
  rcases hlab (rowAt x5 v) with e | e <;> rw [e] <;> decide

include hvi in
theorem lab_v18 (v : Fin 500000) : val_main_v18 (F := Ideal) x4 x5 (ix2 v 0) = labAt x4 x5 v := by
  rw [val_main_v18_apply, idx_v18_at, lab_v8 x4 x5 hvi]

include hvi hlab in
theorem lab_c1v4 (v : Fin 500000) : val_main_call1_v4 (F := Ideal) x4 x5 (ix2 v 0) = labAt x4 x5 v := by
  rw [val_main_call1_v4_apply, val_main_call1_v1_apply, val_main_call1_v0_apply, val_main_call1_c_apply, lab_v18 x4 x5 hvi]
  exact select_nonneg _ _ _ (lab_nonneg x4 x5 hlab v)

include hvi hlab in
theorem lab_c1v5 (v : Fin 500000) : val_main_call1_v5 (F := Ideal) x4 x5 (ix3 v 0 0) = labAt x4 x5 v := by
  rw [val_main_call1_v5_apply, idx_c1v5_at, lab_c1v4 x4 x5 hvi hlab]

include hvi hlab in
/-- The range mask of the gather along the last axis is all ones. -/
theorem mask_c1v11 (i : S500000x1x1.Idx) : val_main_call1_v11 (F := Ideal) x4 x5 i = 1#1 := by
  obtain ⟨v, rfl⟩ : ∃ v : Fin 500000, i = ix3 v 0 0 := ⟨i 0, eq_ix3_col i⟩
  rw [val_main_call1_v11_apply, val_main_call1_v7_apply, val_main_call1_v10_apply, lab_c1v5 x4 x5 hvi hlab,
    val_main_call1_v6_apply, val_main_call1_c_2_apply, val_main_call1_v9_apply, val_main_call1_v8_apply,
    val_main_call1_c_1_apply]
  exact in_range_bit _ (hlab _)

include hvi hlab in
theorem mask_c1v12 (v : Fin 500000) : val_main_call1_v12 (F := Ideal) x4 x5 (ix2 v 0) = 1#1 := by
  unfold val_main_call1_v12
  exact hostReduce_andi_ones _ _ _ _ rfl (mask_c1v11 x4 x5 hvi hlab) _

include hvi hlab in
theorem pick_c1v13 (v : Fin 500000) :
    val_main_call1_v13 (F := Ideal) x2 x4 x5 (ix2 v 0) = logpR (clsRow x2 (rowAt x5 v)) (labIdx (labAt x4 x5 v)) := by
  unfold val_main_call1_v13
  rw [along_at, lab_c1v5 x4 x5 hvi hlab v, logp_v17 x2 x5 hvi, clamp2_lab (labAt x4 x5 v) (hlab (rowAt x5 v))]

include hvi hlab in
theorem take_v19 (v : Fin 500000) :
    val_main_v19 (F := Ideal) x2 x4 x5 (ix2 v 0) = logpR (clsRow x2 (rowAt x5 v)) (labIdx (labAt x4 x5 v)) := by
  rw [val_main_v19_apply, mask_c1v12 x4 x5 hvi hlab, pick_c1v13 x2 x4 x5 hvi hlab]
  exact select_one _ _

include hvi hlab in
theorem S0_v20 (i : S_.Idx) : val_main_v20 (F := Ideal) x2 x4 x5 i = S0 x2 x4 x5 := by
  rw [val_main_v20_apply]
  simp only [val_main_cst_apply, Ideal.ofBits_def, Ideal.ofBits_zero_f32, zero_add]
  rw [sum_col]
  exact Finset.sum_congr rfl fun v _ => take_v19 x2 x4 x5 hvi hlab v

include hvi hlab in
theorem cls_v22 (i : S_.Idx) : val_main_v22 (F := Ideal) x2 x4 x5 i = -(Ideal.div (S0 x2 x4 x5) countC) := by
  rw [val_main_v22_apply, val_main_v21_apply, S0_v20 x2 x4 x5 hvi hlab, val_main_cst_3_apply]
  rfl

/-! ### The regression and background terms of each sampled anchor -/

theorem idx_v59_at (v : Fin 500000) (k : Fin 4) : idx_main_v59 (ix1 v) k = ix2 v k := by
  funext a; match a with | ⟨0, _⟩ => rfl | ⟨1, _⟩ => rfl
theorem idx_v62_at (v : Fin 500000) (k : Fin 4) : idx_main_v62 (ix1 v) k = ix2 v k := by
  funext a; match a with | ⟨0, _⟩ => rfl | ⟨1, _⟩ => rfl

include hvi in
theorem var_v49 (v : Fin 500000) (k : Fin 4) :
    val_main_v49 (F := Ideal) x1 x5 (ix2 v k) = varR (boxRow x1 (rowAt x5 v) k) := by
  rw [val_main_v49_apply, val_main_v48_apply, val_main_cst_10_apply, val_main_v47_apply, box_v38 x1 x5 hvi]
  rfl

include hvi in
theorem pos_v58 (v : Fin 500000) (k : Fin 4) :
    val_main_v58 (F := Ideal) x0 x1 x3 x5 (ix2 v k)
      = Ideal.div (halfC * ((boxRow x0 (rowAt x5 v) k - boxRow x3 (rowAt x5 v) k) * (boxRow x0 (rowAt x5 v) k - boxRow x3 (rowAt x5 v) k)))
          (varR (boxRow x1 (rowAt x5 v) k)) + halfC * Ideal.log (varR (boxRow x1 (rowAt x5 v) k)) := by
  rw [val_main_v58_apply, val_main_v54_apply, val_main_v53_apply, val_main_v52_apply, val_main_cst_11_apply,
    val_main_v51_apply, val_main_v50_apply, box_v30 x0 x5 hvi, box_v46 x3 x5 hvi, var_v49 x1 x5 hvi,
    val_main_v57_apply, val_main_v56_apply, val_main_cst_12_apply, val_main_v55_apply, var_v49 x1 x5 hvi]
  rfl

include hvi in
theorem posTerm_v59 (v : Fin 500000) :
    val_main_v59 (F := Ideal) x0 x1 x3 x5 (ix1 v)
      = posTermR (boxRow x0 (rowAt x5 v)) (boxRow x1 (rowAt x5 v)) (boxRow x3 (rowAt x5 v)) := by
  rw [val_main_v59_apply]
  simp only [val_main_cst_13_apply, Ideal.ofBits_def, Ideal.ofBits_zero_f32, zero_add]
  unfold posTermR
  refine Finset.sum_congr rfl fun k _ => ?_
  rw [idx_v59_at, pos_v58 x0 x1 x3 x5 hvi]

include hvi in
theorem neg_v61 (v : Fin 500000) (k : Fin 4) :
    val_main_v61 (F := Ideal) x1 x5 (ix2 v k) = Ideal.div 1 (varR (boxRow x1 (rowAt x5 v) k)) := by
  rw [val_main_v61_apply, val_main_v60_apply, val_main_cst_14_apply, var_v49 x1 x5 hvi]
  show Ideal.div (Ideal.ofBits .f32 0x3F800000#32) _ = _
  rw [Ideal.ofBits_one_f32]

include hvi in
theorem negTerm_v62 (v : Fin 500000) :
    val_main_v62 (F := Ideal) x1 x5 (ix1 v) = negTermR (boxRow x1 (rowAt x5 v)) := by
  rw [val_main_v62_apply]
  simp only [val_main_cst_15_apply, Ideal.ofBits_def, Ideal.ofBits_zero_f32, zero_add]
  unfold negTermR
  refine Finset.sum_congr rfl fun k _ => ?_
  rw [idx_v62_at, neg_v61 x1 x5 hvi]

/-! ### The indicator of label 1, and the five sums over the sampled positions -/

include hvi in
theorem pos_v65 (v : Fin 500000) : val_main_v65 (F := Ideal) x4 x5 (ix1 v) = posf (labAt x4 x5 v) := by
  rw [val_main_v65_apply, val_main_v64_apply, lab_v8 x4 x5 hvi, val_main_v63_apply, val_main_c_16_apply]
  exact uitofp_eq_one _

include hvi in
theorem nPos_v66 (i : S_.Idx) : val_main_v66 (F := Ideal) x4 x5 i = nPos x4 x5 := by
  rw [val_main_v66_apply]
  simp only [val_main_cst_17_apply, Ideal.ofBits_def, Ideal.ofBits_zero_f32, zero_add]
  rw [sum_vec]
  exact Finset.sum_congr rfl fun v _ => pos_v65 x4 x5 hvi v

include hvi in
theorem neg_v68 (v : Fin 500000) : val_main_v68 (F := Ideal) x4 x5 (ix1 v) = 1 - posf (labAt x4 x5 v) := by
  rw [val_main_v68_apply, val_main_v67_apply, val_main_cst_18_apply, pos_v65 x4 x5 hvi]
  show Ideal.ofBits .f32 0x3F800000#32 - _ = _
  rw [Ideal.ofBits_one_f32]

include hvi in
theorem nNeg_v69 (i : S_.Idx) : val_main_v69 (F := Ideal) x4 x5 i = nNeg x4 x5 := by
  rw [val_main_v69_apply]
  simp only [val_main_cst_19_apply, Ideal.ofBits_def, Ideal.ofBits_zero_f32, zero_add]
  rw [sum_vec]
  exact Finset.sum_congr rfl fun v _ => neg_v68 x4 x5 hvi v

include hvi in
theorem S1_v71 (i : S_.Idx) : val_main_v71 (F := Ideal) x0 x1 x3 x4 x5 i = S1 x0 x1 x3 x4 x5 := by
  rw [val_main_v71_apply]
  simp only [val_main_cst_20_apply, Ideal.ofBits_def, Ideal.ofBits_zero_f32, zero_add]
  rw [sum_vec]
  refine Finset.sum_congr rfl fun v _ => ?_
  rw [val_main_v70_apply, posTerm_v59 x0 x1 x3 x5 hvi, pos_v65 x4 x5 hvi]
  rfl

include hvi in
theorem neg_v74 (v : Fin 500000) : val_main_v74 (F := Ideal) x4 x5 (ix1 v) = 1 - posf (labAt x4 x5 v) := by
  rw [val_main_v74_apply, val_main_v73_apply, val_main_cst_21_apply, pos_v65 x4 x5 hvi]
  show Ideal.ofBits .f32 0x3F800000#32 - _ = _
  rw [Ideal.ofBits_one_f32]

include hvi in
theorem S2_v76 (i : S_.Idx) : val_main_v76 (F := Ideal) x1 x4 x5 i = S2 x1 x4 x5 := by
  rw [val_main_v76_apply]
  simp only [val_main_cst_22_apply, Ideal.ofBits_def, Ideal.ofBits_zero_f32, zero_add]
  rw [sum_vec]
  refine Finset.sum_congr rfl fun v _ => ?_
  rw [val_main_v75_apply, negTerm_v62 x1 x5 hvi, neg_v74 x4 x5 hvi]
  rfl

end

/-! ### The result -/

theorem ref_value (x0 x1 : FVec Ideal SBox .f32) (x2 : FVec Ideal SCls .f32) (x3 : FVec Ideal SBox .f32)
    (x4 : IVec SLab 32) (x5 : IVec SVal 32)
    (hvi : ∀ v : Fin 500000, 0 ≤ (x5 (ix2 0 v)).toInt ∧ (x5 (ix2 0 v)).toInt < 2000000)
    (hlab : ∀ n : Fin 2000000, x4 (ix2 0 n) = 0#32 ∨ x4 (ix2 0 n) = 1#32) :
    Cert.ReferenceIdeal.ReadCopy.val_main_v79 (F := Ideal) x0 x1 x2 x3 x4 x5 = fun _ => result x0 x1 x2 x3 x4 x5 := by
  funext i
  rw [val_main_v79_apply, val_main_v78_apply, val_main_v72_apply, val_main_v77_apply, cls_v22 x2 x4 x5 hvi hlab,
    S1_v71 x0 x1 x3 x4 x5 hvi, nPos_v66 x4 x5 hvi, S2_v76 x1 x4 x5 hvi, nNeg_v69 x4 x5 hvi]
  rfl

end Cert.Rpn

end
-- ==== Proof.RpnBody.lean ====
/-
  One tile's block of the output: row 0, columns 0..4 of the 8 x 128 block the kernel body stores are the tile's five sums
  (class term, regression term, background term, weight of label 1, weight of the rest) over its 20,000 anchors.

  The body computes, row by row of the tile, the weights w*l and w*(1-l), the class term (the two log-softmax values of the
  row's logits, each times its weight), the variances eps + u*u, and the two parts of the regression term; it then sums
  five columns over the 20,000 rows, lays the five sums side by side as one row of five, pads seven rows of zeros under it
  and 123 columns of zeros to its right, and stores the 8 x 128 result. Read at (0, q), q < 5, the padding falls away and
  the entry is the q-th sum; each sum's summand at row r is the corresponding per-anchor term of the specification. No
  algebraic law is needed: the factors and the summands stand in the same order and grouping on both sides.
-/
import proofs.«413350_j40226663695030_1_alg».proof.Proof.Gen.KernelIdeal.Frame
import proofs.«413350_j40226663695030_1_alg».proof.Proof.RpnSpec
import Idealize.ShloMosaic.Lib.Pipeline.Value
import Idealize.ShloMosaic.Lib.ValueLayout

noncomputable section

open scoped BigOperators

namespace Cert.Rpn

open Idealize.ShloMosaic Idealize.ShloMosaic.ValueIdx Cert.KernelIdeal Cert.KernelIdeal.Gen

namespace Body

/-! ### Layout operations read at an index -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- Over row `r` of an `[n, b]` array reduced along its columns, the index with column `k` put back is `(r, k)`. -/
theorem lift_row {n b : ℕ} (h : (⟨2, ![n, b]⟩ : Shape).Reduces [1] ⟨1, ![n]⟩) (r : Fin n) (k : Fin b) :
    h.lift (ix1 r) k = ix2 r k :=
  funext fun c => match c with | ⟨0, _⟩ => Fin.ext rfl | ⟨1, _⟩ => Fin.ext rfl

/-- A sum along the columns kept as a column: at row `r` it is the sum of the row's entries. -/
theorem rowSum_apply {n b : ℕ} (v : FVec Ideal ⟨2, ![n, b]⟩ .f32) (h : (⟨2, ![n, b]⟩ : Shape).Reduces [1] ⟨1, ![n]⟩)
    (hc : (⟨1, ![n]⟩ : Shape).ShapeCasts ⟨2, ![n, 1]⟩) (r : Fin n) (u : Fin 1) :
    shapeCast ⟨2, ![n, 1]⟩ (multiReduction (F := Ideal) .add [1] ⟨1, ![n]⟩ v 0x00000000#32 h (.inl rfl) rfl) hc (ix2 r u)
      = ∑ k : Fin b, v (ix2 r k) :=
  (shapeCast_a_a1_apply _ hc r u).trans
    ((Ideal.multiReduction_add_single v _ h (.inl rfl) rfl (ix1 r)).trans
      (Finset.sum_congr rfl fun k _ => congrArg v (lift_row h r k)))

/-- The fold of `max` over two entries. -/
theorem fold_max_fin2 (b : EReal) (g : Fin 2 → EReal) :
    (Finset.univ : Finset (Fin 2)).fold max b g = max (g 0) (max (g 1) b) := by
  have hu : (Finset.univ : Finset (Fin 2)) = insert 0 {1} := by decide
  rw [hu, Finset.fold_insert (by decide), Finset.fold_singleton]

/-- A maximum along the two columns kept as a column: at row `r` it is the larger of the row's two entries. -/
theorem rowMax_apply {n : ℕ} (v : FVec Ideal ⟨2, ![n, 2]⟩ .f32) (h : (⟨2, ![n, 2]⟩ : Shape).Reduces [1] ⟨1, ![n]⟩)
    (hc : (⟨1, ![n]⟩ : Shape).ShapeCasts ⟨2, ![n, 1]⟩) (r : Fin n) (u : Fin 1) :
    shapeCast ⟨2, ![n, 1]⟩ (multiReduction (F := Ideal) .maximumf [1] ⟨1, ![n]⟩ v 0xFF800000#32 h (.inl rfl) rfl) hc (ix2 r u)
      = rowMaxR (fun j => v (ix2 r j)) := by
  refine (shapeCast_a_a1_apply _ hc r u).trans ((Ideal.multiReduction_maximumf_single v _ h (.inl rfl) rfl (ix1 r)).trans ?_)
  have e : (fun k : Fin 2 => v (h.lift (ix1 r) k)) = fun k => v (ix2 r k) :=
    funext fun k => congrArg v (lift_row h r k)
  refine (congrArg (fun g => Finset.fold max (Ideal.ofBits .f32 0xFF800000#32) g (Finset.univ : Finset (Fin 2))) e).trans ?_
  have hb : ∀ y : EReal, max y (Ideal.ofBits .f32 0xFF800000#32) = y := by
    intro y; simp [Ideal.ofBits, Ideal.ieee]
  rw [fold_max_fin2, hb]; rfl

/-- The rows of a column, as the indices of the column viewed `[1, n, 1]`. -/
def rowEquiv (n : ℕ) : (⟨3, ![1, n, 1]⟩ : Shape).Idx ≃ Fin n where
  toFun i := i 1
  invFun r := ix3 (0 : Fin 1) r (0 : Fin 1)
  left_inv i := by
    funext c
    match c with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv r := rfl

/-- A column viewed `[1, n, 1]`, summed over its last two axes, the one entry taken out: the sum of the column. -/
theorem colTotal_apply {n : ℕ} (v : FVec Ideal ⟨2, ![n, 1]⟩ .f32)
    (hc1 : (⟨2, ![n, 1]⟩ : Shape).ShapeCasts ⟨3, ![1, n, 1]⟩)
    (h : (⟨3, ![1, n, 1]⟩ : Shape).Reduces [1, 2] ⟨1, ![1]⟩)
    (hc2 : (⟨1, ![1]⟩ : Shape).ShapeCasts ⟨3, ![1, 1, 1]⟩)
    (hp : ∀ a, (![0, 0, 0] : Fin 3 → Nat) a < (⟨3, ![1, 1, 1]⟩ : Shape).size a) :
    extractAt ![0, 0, 0] (shapeCast ⟨3, ![1, 1, 1]⟩
        (multiReduction (F := Ideal) .add [1, 2] ⟨1, ![1]⟩ (shapeCast ⟨3, ![1, n, 1]⟩ v hc1) 0x00000000#32 h (.inl rfl) rfl) hc2) hp
      = ∑ r : Fin n, v (ix2 r (0 : Fin 1)) := by
  unfold extractAt shapeCast
  refine (Ideal.multiReduction_add_total _ _ h (fun b => match b with | ⟨0, _⟩ => rfl) (.inl rfl) rfl _).trans ?_
  exact (Fintype.sum_equiv (rowEquiv n).symm (fun r => v (ix2 r (0 : Fin 1))) _
    (fun r => (shapeCast_ab_1ab_apply v hc1 (0 : Fin 1) r (0 : Fin 1)).symm)).symm

/-! ### The body's per-row values -/

section Rows
variable (x0 x1 x3 : Vec Ideal S20000x4 .f32) (x2 : Vec Ideal S20000x2 .f32) (x4 : Vec Ideal S20000x1 .f32)
  (x5 : Vec Ideal S20000x1 .i32)

/-- The label of row r as a number. -/
abbrev labR (r : Fin 20000) : EReal := (((x5 (ix2 r (0 : Fin 1))).toInt : ℝ) : EReal)

/-- The weight column, read at row r. -/
theorem pay2_apply (r : Fin 20000) : k0_pay2 (F := Ideal) x4 (ix2 r (0 : Fin 1)) = x4 (ix2 r 0) := by
  unfold k0_pay2; rw [shapeCast_self]

/-- The label column converted to a number, read at row r. -/
theorem pay3_apply (r : Fin 20000) : k0_pay3 (F := Ideal) x5 (ix2 r (0 : Fin 1)) = labR x5 r := by
  unfold k0_pay3; rw [shapeCast_self]; rfl

/-- The weight of label 1 at row r: w * l. -/
theorem pay4_apply (r : Fin 20000) :
    k0_pay4 (F := Ideal) x4 x5 (ix2 r (0 : Fin 1)) = wt3 (x4 (ix2 r 0)) (labR x5 r) := by
  unfold k0_pay4; rw [mulf_apply, pay2_apply, pay3_apply]; rfl

/-- The weight of the rest at row r: w * (1 - l). -/
theorem pay5_apply (r : Fin 20000) :
    k0_pay5 (F := Ideal) x4 x5 (ix2 r (0 : Fin 1)) = wt4 (x4 (ix2 r 0)) (labR x5 r) := by
  unfold k0_pay5; rw [mulf_apply, subf_apply, broadcast_apply, pay2_apply, pay3_apply]
  show x4 (ix2 r 0) * (Ideal.ofBits .f32 0x3F800000#32 - labR x5 r) = _
  rw [Ideal.ofBits_one_f32]; rfl

/-- The variance at (r, k): eps + u * u. -/
theorem pay7_apply (r : Fin 20000) (k : Fin 4) :
    k0_pay7 (F := Ideal) x1 (ix2 r k) = varR (x1 (ix2 r k)) := by
  unfold k0_pay7; rw [addf_apply, mulf_apply, broadcast_apply, shapeCast_self]; rfl

/-- The logarithm of the variance at (r, k). -/
theorem pay9_apply (r : Fin 20000) (k : Fin 4) :
    k0_pay9 (F := Ideal) x1 (ix2 r k) = Ideal.log (varR (x1 (ix2 r k))) := by
  unfold k0_pay9
  show Ideal.log (k0_pay7 (F := Ideal) x1 (ix2 r k)) = _
  rw [pay7_apply]

/-- The squared-error part of the regression term at (r, k): half * (p - g)^2 / var. -/
theorem pay8_apply (r : Fin 20000) (k : Fin 4) :
    k0_pay8 (F := Ideal) x0 x1 x3 (ix2 r k)
      = Ideal.div (halfC * ((x0 (ix2 r k) - x3 (ix2 r k)) * (x0 (ix2 r k) - x3 (ix2 r k)))) (varR (x1 (ix2 r k))) := by
  unfold k0_pay8
  rw [divf_apply, mulf_apply, mulf_apply, subf_apply, broadcast_apply, shapeCast_self, shapeCast_self, pay7_apply]
  rfl

end Rows

section Rows6
variable (x2 : Vec Ideal S20000x2 .f32) (x4 : Vec Ideal S20000x1 .f32) (x5 : Vec Ideal S20000x1 .i32)

/-- The pointwise logarithm and exponential read at an index. -/
theorem log_apply {s : Shape} {φ : FTy} (a : FVec Ideal s φ) (i : s.Idx) : log a i = Ideal.log (a i) := rfl
theorem exp_apply {s : Shape} {φ : FTy} (a : FVec Ideal s φ) (i : s.Idx) : exp a i = Ideal.exp (a i) := rfl

/-- The class column at row r: the two log-softmax values of the row's logits (each logit less the row's maximum, less the
    logarithm of the sum of the exponentials of the shifted logits), the first times w * (1 - l), the second times w * l. -/
theorem pay6_apply (r : Fin 20000) :
    k0_pay6 (F := Ideal) x2 x4 x5 (ix2 r (0 : Fin 1))
      = wt0 (x4 (ix2 r 0)) (labR x5 r) (fun j => x2 (ix2 r j)) := by
  unfold k0_pay6
  rw [addf_apply, mulf_apply, mulf_apply, pay5_apply, pay4_apply,
    slice2_axis1_apply 0 _ _ r (0 : Fin 1) (0 : Fin 2) rfl, slice2_axis1_apply 1 _ _ r (0 : Fin 1) (1 : Fin 2) rfl]
  simp only [subf_apply, broadcastTo_a1_ab_apply, log_apply, shapeCast_self]
  rw [rowMax_apply, rowSum_apply]
  simp only [exp_apply, subf_apply, broadcastTo_a1_ab_apply]
  rw [rowMax_apply]
  rfl

end Rows6

/-! ### The assembled block at row 0 -/

/-- Five one-entry pieces laid end to end: entry `q` is the `q`-th piece's value. -/
theorem concat5_apply {α : Type} (y0 y1 y2 y3 y4 : α)
    (h : Shape.Concatenates [KernelIdeal.S1, KernelIdeal.S1, KernelIdeal.S1, KernelIdeal.S1, KernelIdeal.S1] S5 0) (q : Fin 5) :
    concatenate S5 0 [⟨KernelIdeal.S1, broadcast KernelIdeal.S1 y0⟩, ⟨KernelIdeal.S1, broadcast KernelIdeal.S1 y1⟩,
        ⟨KernelIdeal.S1, broadcast KernelIdeal.S1 y2⟩, ⟨KernelIdeal.S1, broadcast KernelIdeal.S1 y3⟩,
        ⟨KernelIdeal.S1, broadcast KernelIdeal.S1 y4⟩] h (ix1 q)
      = (match q with | 0 => y0 | 1 => y1 | 2 => y2 | 3 => y3 | 4 => y4) := by
  let xs : List ((s : Shape) × (s.Idx → α)) :=
    [⟨KernelIdeal.S1, broadcast KernelIdeal.S1 y0⟩, ⟨KernelIdeal.S1, broadcast KernelIdeal.S1 y1⟩,
      ⟨KernelIdeal.S1, broadcast KernelIdeal.S1 y2⟩, ⟨KernelIdeal.S1, broadcast KernelIdeal.S1 y3⟩,
      ⟨KernelIdeal.S1, broadcast KernelIdeal.S1 y4⟩]
  match q with
  | ⟨0, _⟩ =>
    exact concatenate_apply_piece (t := S5) (0 : Fin 1) xs h _ 0 (show 0 < 5 by omega) KernelIdeal.S1 (broadcast KernelIdeal.S1 y0) rfl rfl 0 rfl
      (ix1 (0 : Fin 1)) (fun b hb => match b with | ⟨0, _⟩ => absurd rfl hb) rfl
  | ⟨1, _⟩ =>
    exact concatenate_apply_piece (t := S5) (0 : Fin 1) xs h _ 1 (show 1 < 5 by omega) KernelIdeal.S1 (broadcast KernelIdeal.S1 y1) rfl rfl 1 rfl
      (ix1 (0 : Fin 1)) (fun b hb => match b with | ⟨0, _⟩ => absurd rfl hb) rfl
  | ⟨2, _⟩ =>
    exact concatenate_apply_piece (t := S5) (0 : Fin 1) xs h _ 2 (show 2 < 5 by omega) KernelIdeal.S1 (broadcast KernelIdeal.S1 y2) rfl rfl 2 rfl
      (ix1 (0 : Fin 1)) (fun b hb => match b with | ⟨0, _⟩ => absurd rfl hb) rfl
  | ⟨3, _⟩ =>
    exact concatenate_apply_piece (t := S5) (0 : Fin 1) xs h _ 3 (show 3 < 5 by omega) KernelIdeal.S1 (broadcast KernelIdeal.S1 y3) rfl rfl 3 rfl
      (ix1 (0 : Fin 1)) (fun b hb => match b with | ⟨0, _⟩ => absurd rfl hb) rfl
  | ⟨4, _⟩ =>
    exact concatenate_apply_piece (t := S5) (0 : Fin 1) xs h _ 4 (show 4 < 5 by omega) KernelIdeal.S1 (broadcast KernelIdeal.S1 y4) rfl rfl 4 rfl
      (ix1 (0 : Fin 1)) (fun b hb => match b with | ⟨0, _⟩ => absurd rfl hb) rfl

/-- The five entries of the stored row, from the per-row columns the body sums: the class column `a`, the two weight
    columns `wp`, `wn`, the variances `var`, and the two parts `d`, `lg` of the regression term joined with the factor `c`. -/
def rowOf (wp wn a : FVec Ideal S20000x1 .f32) (var d lg : FVec Ideal S20000x4 .f32) (c : Ideal .f32) : Fin 5 → EReal
  | 0 => ∑ r : Fin 20000, a (ix2 r (0 : Fin 1))
  | 1 => ∑ r : Fin 20000, wp (ix2 r (0 : Fin 1)) * ∑ k : Fin 4, (d (ix2 r k) + c * lg (ix2 r k))
  | 2 => ∑ r : Fin 20000, wn (ix2 r (0 : Fin 1)) * ∑ k : Fin 4, Ideal.div (Ideal.ofBits .f32 0x3F800000#32) (var (ix2 r k))
  | 3 => ∑ r : Fin 20000, wp (ix2 r (0 : Fin 1))
  | 4 => ∑ r : Fin 20000, wn (ix2 r (0 : Fin 1))

/-- Row 0, column `q < 5` of the block the body assembles is the `q`-th of those sums: the block is the five sums as one row,
    seven rows of zeros under it and 123 columns of zeros to its right. -/
theorem pay1_apply (wp wn a : FVec Ideal S20000x1 .f32) (var d lg : FVec Ideal S20000x4 .f32) (c : Ideal .f32) (q : Fin 5) :
    k0_pay1 (F := Ideal) wp wn a var d lg c (ix2 (0 : Fin 8) (⟨q.val, by have := q.isLt; omega⟩ : Fin 128))
      = rowOf wp wn a var d lg c q := by
  unfold k0_pay1
  refine (concatenate_pair_apply_left (t := S8x128) (s₁ := S8x5) (s₂ := S8x123) (1 : Fin 2) _ _ _ _ rfl (ix2 (0 : Fin 8) q)
    (fun b => match b with | ⟨0, _⟩ => rfl | ⟨1, _⟩ => rfl)).trans ?_
  refine (concatenate_pair_apply_left (t := S8x5) (s₁ := S1x5) (s₂ := S7x5) (0 : Fin 2) _ _ _ _ rfl (ix2 (0 : Fin 1) q)
    (fun b => match b with | ⟨0, _⟩ => rfl | ⟨1, _⟩ => rfl)).trans ?_
  refine (shapeCast_a_1a_apply _ _ (0 : Fin 1) q).trans ?_
  refine (concat5_apply _ _ _ _ _ _ q).trans ?_
  match q with
  | ⟨0, _⟩ => exact colTotal_apply a _ _ _ _
  | ⟨1, _⟩ =>
    refine (colTotal_apply _ _ _ _ _).trans (Finset.sum_congr rfl fun r _ => ?_)
    rw [mulf_apply, rowSum_apply]; rfl
  | ⟨2, _⟩ =>
    refine (colTotal_apply _ _ _ _ _).trans (Finset.sum_congr rfl fun r _ => ?_)
    rw [mulf_apply, rowSum_apply]; rfl
  | ⟨3, _⟩ => exact colTotal_apply wp _ _ _ _
  | ⟨4, _⟩ => exact colTotal_apply wn _ _ _ _

/-- The zero offsets of a whole-block rectangle, as a constant function. -/
theorem offsets_zero : (![0, 0] : Fin 2 → Nat) = fun _ => 0 := funext fun a => by fin_cases a <;> rfl

/-- The stored block is the body's assembled block of the six input blocks: the body loads each input block whole and
    stores once, through the whole output block. -/
theorem out_eq (x0 x1 : Vec Ideal S20000x4 .f32) (x2 : Vec Ideal S20000x2 .f32) (x3 : Vec Ideal S20000x4 .f32)
    (x4 : Vec Ideal S20000x1 .f32) (x5 : Vec Ideal S20000x1 .i32) :
    out0_6 (F := Ideal) x0 x1 x2 x3 x4 x5
      = k0_pay1 (k0_pay4 x4 x5) (k0_pay5 x4 x5) (k0_pay6 x2 x4 x5) (k0_pay7 x1) (k0_pay8 x0 x1 x3) (k0_pay9 x1)
          (Scalar.ofBits .f32 0x3F000000#32) := by
  unfold out0_6
  rw [View.canon_unit_zero offsets_zero]
  simp only [View.ld_unit_zero (S := S20000x4) offsets_zero, View.ld_unit_zero (S := S20000x2) offsets_zero,
    View.ld_unit_zero (S := S20000x1) offsets_zero]

end Body

open Body in
/-- Row 0, column q < 5 of the stored block is the q-th tile sum of the six input blocks. -/
theorem out_block (x0 x1 : Vec Ideal S20000x4 .f32) (x2 : Vec Ideal S20000x2 .f32) (x3 : Vec Ideal S20000x4 .f32)
    (x4 : Vec Ideal S20000x1 .f32) (x5 : Vec Ideal S20000x1 .i32) (q : Fin 5) :
    out0_6 (F := Ideal) x0 x1 x2 x3 x4 x5 (ix2 (0 : Fin 8) (⟨q.val, by have := q.isLt; omega⟩ : Fin 128))
      = blkSum (fun r k => x0 (ix2 r k)) (fun r k => x1 (ix2 r k)) (fun r j => x2 (ix2 r j)) (fun r k => x3 (ix2 r k))
          (fun r => x4 (ix2 r (0 : Fin 1))) (fun r => (((x5 (ix2 r (0 : Fin 1))).toInt : ℝ) : EReal)) q := by
  refine ((congrFun (out_eq x0 x1 x2 x3 x4 x5) _).trans (pay1_apply _ _ _ _ _ _ _ q)).trans ?_
  match q with
  | ⟨0, _⟩ => exact Finset.sum_congr rfl fun r _ => pay6_apply x2 x4 x5 r
  | ⟨1, _⟩ =>
    refine Finset.sum_congr rfl fun r _ => ?_
    rw [pay4_apply]; simp only [pay8_apply, pay9_apply]; rfl
  | ⟨2, _⟩ =>
    refine Finset.sum_congr rfl fun r _ => ?_
    rw [pay5_apply]; simp only [pay7_apply, Ideal.ofBits_one_f32]; rfl
  | ⟨3, _⟩ => exact Finset.sum_congr rfl fun r _ => pay4_apply x4 x5 r
  | ⟨4, _⟩ => exact Finset.sum_congr rfl fun r _ => pay5_apply x4 x5 r

end Cert.Rpn

end
-- ==== Proof.RpnArray_Sum.lean ====
/-
  A tile's five block sums are the tile sums of the five per-anchor summands, once each block row is identified with the
  anchor's row of the argument arrays, its weight and its label.
-/
import proofs.«413350_j40226663695030_1_alg».proof.Proof.RpnSpec

noncomputable section

open scoped BigOperators

namespace Cert.Rpn

open Idealize.ShloMosaic Idealize.ShloMosaic.ValueIdx

/-- If row r of each block is anchor (t, r)'s row of the corresponding array, its weight and its label, then the five sums over
    the block are the five tile sums. -/
theorem blkSum_eq_tileSum (pred unc : FVec Ideal SBox .f32) (cls : FVec Ideal SCls .f32) (gt : FVec Ideal SBox .f32)
    (lab : IVec SLab 32) (vi : IVec SVal 32) (t : Fin 100)
    (b0 b1 : Fin 20000 → Fin 4 → EReal) (b2 : Fin 20000 → Fin 2 → EReal) (b3 : Fin 20000 → Fin 4 → EReal)
    (bw bl : Fin 20000 → EReal)
    (h0 : ∀ r, b0 r = boxRow pred (anchorOf t r)) (h1 : ∀ r, b1 r = boxRow unc (anchorOf t r))
    (h2 : ∀ r, b2 r = clsRow cls (anchorOf t r)) (h3 : ∀ r, b3 r = boxRow gt (anchorOf t r))
    (hw : ∀ r, bw r = weight vi (anchorOf t r)) (hl : ∀ r, bl r = labf lab (anchorOf t r)) (q : Fin 5) :
    blkSum b0 b1 b2 b3 bw bl q = tileSum (ktermQ pred unc cls gt lab vi q) t := by
  match q with
  | ⟨0, _⟩ =>
    show ∑ r : Fin 20000, wt0 (bw r) (bl r) (b2 r) = ∑ r : Fin 20000, kterm0 cls lab vi (anchorOf t r)
    exact Finset.sum_congr rfl fun r _ => by rw [hw r, hl r, h2 r]; rfl
  | ⟨1, _⟩ =>
    show ∑ r : Fin 20000, wt1 (bw r) (bl r) (b0 r) (b1 r) (b3 r) = ∑ r : Fin 20000, kterm1 pred unc gt lab vi (anchorOf t r)
    exact Finset.sum_congr rfl fun r _ => by rw [hw r, hl r, h0 r, h1 r, h3 r]; rfl
  | ⟨2, _⟩ =>
    show ∑ r : Fin 20000, wt2 (bw r) (bl r) (b1 r) = ∑ r : Fin 20000, kterm2 unc lab vi (anchorOf t r)
    exact Finset.sum_congr rfl fun r _ => by rw [hw r, hl r, h1 r]; rfl
  | ⟨3, _⟩ =>
    show ∑ r : Fin 20000, wt3 (bw r) (bl r) = ∑ r : Fin 20000, kterm3 lab vi (anchorOf t r)
    exact Finset.sum_congr rfl fun r _ => by rw [hw r, hl r]; rfl
  | ⟨4, _⟩ =>
    show ∑ r : Fin 20000, wt4 (bw r) (bl r) = ∑ r : Fin 20000, kterm4 lab vi (anchorOf t r)
    exact Finset.sum_congr rfl fun r _ => by rw [hw r, hl r]; rfl

end Cert.Rpn

end
-- ==== Proof.RpnArray_Weight.lean ====
/-
  The weight array: the scatter-add of ones into zeros at the sampled words counts, at each anchor, the sampled positions
  whose word names it. A word w with 0 ≤ w < N (read signed) is left alone by the wrap-around of negative indices, is the
  start of a one-element window on the operand's one axis, and so lands on row w.
-/
import proofs.«413350_j40226663695030_1_alg».proof.Proof.Gen.KernelIdeal
import proofs.«413350_j40226663695030_1_alg».proof.Proof.RpnSpec
import Idealize.ShloMosaic.Lib.Pipeline.Value
import Idealize.ShloMosaic.Lib.ValueLayout

noncomputable section

open scoped BigOperators

namespace Cert.Rpn

open Idealize.ShloMosaic Idealize.ShloMosaic.ValueIdx Cert.KernelIdeal Cert.KernelIdeal.Gen

/-- The scatter's dimension numbers: a [V, 1] array of start indices into the one axis of an [N] operand, one update per start. -/
abbrev scat : ScatterDims S2000000 S500000x1 S500000 := scatter_S2000000_S500000x1_S500000_n_0_0_1

/-- A rank-1 index set is its coordinate's range. -/
def idxEquiv1 {n : Nat} : (⟨1, ![n]⟩ : Shape).Idx ≃ Fin n where
  toFun i := i 0
  invFun v := ix1 v
  left_inv i := (eq_ix1 i).symm
  right_inv _ := rfl

/-- Update j reads its start index at [j, 0]. -/
theorem scat_siIdx (j : S500000.Idx) (c : Fin scat.scatterDimsToOperandDims.length) :
    scat.siIdx j c = ix2 (j 0) (0 : Fin 1) := by
  funext b; refine Fin.ext ?_
  match b with
  | ⟨0, _⟩ => rfl
  | ⟨1, _⟩ =>
    have hc : c.val < 1 := c.isLt
    show c.val = 0
    omega

/-- On the operand's one axis update j lands at its start index read signed: the window has the one coordinate 0. -/
theorem scat_pos (j : S500000.Idx) (idx : IVec S500000x1 32) :
    scat.start j idx 0 + (scat.window j 0 : Int) = (idx (ix2 (j 0) (0 : Fin 1))).toInt := by
  unfold ScatterDims.start ScatterDims.window
  rw [dif_pos (show (0 : Fin 1) ∈ scat.scatterDimsToOperandDims from List.mem_singleton.mpr rfl),
    dif_neg (show ¬ (0 : Fin 1) ∈ scat.sKept by decide), scat_siIdx]
  simp

/-- An update whose start index is in [0, N) lands on that row. -/
theorem scat_resultIdx (j : S500000.Idx) (idx : IVec S500000x1 32)
    (h0 : 0 ≤ (idx (ix2 (j 0) (0 : Fin 1))).toInt) (h1 : (idx (ix2 (j 0) (0 : Fin 1))).toInt < 2000000) :
    scat.resultIdx? j idx = some (ix1 (⟨(idx (ix2 (j 0) (0 : Fin 1))).toInt.toNat, by omega⟩ : Fin 2000000)) := by
  unfold ScatterDims.resultIdx?
  have hall : ∀ a, 0 ≤ scat.start j idx a + scat.window j a ∧ scat.start j idx a + scat.window j a < S2000000.size a := by
    intro a
    obtain rfl : a = 0 := Subsingleton.elim _ _
    rw [scat_pos]
    exact ⟨h0, h1⟩
  rw [dif_pos hall]
  congr 1
  funext a
  obtain rfl : a = 0 := Subsingleton.elim _ _
  refine Fin.ext ?_
  show (scat.start j idx 0 + scat.window j 0).toNat = _
  rw [scat_pos]

/-- A word that is not negative compares "not below zero". -/
theorem cmpi_slt_zero (x : BitVec 32) (h : 0 ≤ x.toInt) : IntOp.cmpi .slt x 0#32 = 0#1 := by
  unfold IntOp.cmpi
  have : x.slt 0#32 = false := by simp [BitVec.slt]; omega
  simp [this]

/-- The sampled words as the scatter's start indices: reshaped to [V], a negative word moved up by N, a trailing unit axis added. -/
def normIdx (vi : IVec S1x500000 32) : IVec S500000x1 32 :=
  broadcastInDim S500000x1 ![0] bcast_S500000_S500000x1_0
    (select (cmpi .slt (shapeCast S500000 vi shapeCasts_S1x500000_S500000) (broadcastInDim S500000 ![] bcast_S_S500000 (constantI S_ 32 0#32)))
      (addi (shapeCast S500000 vi shapeCasts_S1x500000_S500000) (broadcastInDim S500000 ![] bcast_S_S500000 (constantI S_ 32 2000000#32)))
      (shapeCast S500000 vi shapeCasts_S1x500000_S500000))

/-- A word that is not negative is its own start index. -/
theorem normIdx_apply (vi : IVec S1x500000 32) (v : Fin 500000) (h0 : 0 ≤ (vi (ix2 (0 : Fin 1) v)).toInt) :
    normIdx vi (ix2 v (0 : Fin 1)) = vi (ix2 (0 : Fin 1) v) := by
  unfold normIdx
  rw [broadcastInDim_apply ![0] bcast_S500000_S500000x1_0 _ (ix2 v (0 : Fin 1)) (ix1 v)
    (fun a => by obtain rfl : a = 0 := Subsingleton.elim _ _; rfl)]
  have hw : shapeCast S500000 vi shapeCasts_S1x500000_S500000 (ix1 v) = vi (ix2 (0 : Fin 1) v) :=
    shapeCast_apply vi _ (ix1 v) (ix2 (0 : Fin 1) v)
      (by rewrite [Shape.rowMajor_val_two, Shape.rowMajor_val_one]; show 0 * 500000 + v.val = v.val; omega)
  show Scalar.select (IntOp.cmpi .slt (shapeCast S500000 vi shapeCasts_S1x500000_S500000 (ix1 v)) 0#32) _
    (shapeCast S500000 vi shapeCasts_S1x500000_S500000 (ix1 v)) = _
  rw [hw, cmpi_slt_zero _ h0, select_zero]

/-- The scatter-add of ones into zeros at the sampled words, read at anchor n, is the number of sampled positions that name n,
    when every word is an anchor index. -/
theorem weight_scatter (vi : IVec S1x500000 32)
    (hvi : ∀ v : Fin 500000, 0 ≤ (vi (ix2 (0 : Fin 1) v)).toInt ∧ (vi (ix2 (0 : Fin 1) v)).toInt < 2000000) (n : Fin 2000000) :
    Host.scatterAdd (F := Ideal) scat
        (broadcastInDim S2000000 ![] bcast_S_S2000000 (constant (F := Ideal) S_ .f32 0x00000000#32))
        (normIdx vi)
        (broadcastInDim S500000 ![] bcast_S_S500000 (constant (F := Ideal) S_ .f32 0x3F800000#32)) (ix1 n)
      = weight vi n := by
  show (broadcastInDim S2000000 ![] bcast_S_S2000000 (constant (F := Ideal) S_ .f32 0x00000000#32)) (ix1 n)
      + ∑ j ∈ Finset.univ.filter (fun j => scat.resultIdx? j (normIdx vi) = some (ix1 n)),
          (broadcastInDim S500000 ![] bcast_S_S500000 (constant (F := Ideal) S_ .f32 0x3F800000#32)) j = _
  rw [broadcastInDim_scalar_apply, constant_apply, Ideal.ofBits_zero_f32, zero_add]
  unfold weight
  refine Finset.sum_equiv idxEquiv1 (fun j => ?_) (fun j _ => ?_)
  · have hj := hvi (j 0)
    have e : normIdx vi (ix2 (j 0) (0 : Fin 1)) = vi (ix2 (0 : Fin 1) (j 0)) := normIdx_apply vi (j 0) hj.1
    have hr := scat_resultIdx j (normIdx vi) (by rw [e]; exact hj.1) (by rw [e]; exact hj.2)
    simp only [Finset.mem_filter, Finset.mem_univ, true_and]
    rw [hr]
    show _ ↔ rowAt vi (j 0) = n
    constructor
    · intro h
      have h2 := congrArg Fin.val (congrFun (Option.some.inj h) 0)
      refine Fin.ext ?_
      show min (vi (ix2 (0 : Fin 1) (j 0))).toInt.toNat 1999999 = n.val
      rw [← e]
      have h3 : (normIdx vi (ix2 (j 0) (0 : Fin 1))).toInt.toNat = n.val := h2
      rw [e] at h3 ⊢
      omega
    · intro h
      have h2 : min (vi (ix2 (0 : Fin 1) (j 0))).toInt.toNat 1999999 = n.val := congrArg Fin.val h
      refine congrArg some (congrArg ix1 (Fin.ext ?_))
      show (normIdx vi (ix2 (j 0) (0 : Fin 1))).toInt.toNat = n.val
      rw [e]
      omega
  · rw [broadcastInDim_scalar_apply, constant_apply, Ideal.ofBits_one_f32]

end Cert.Rpn

end
-- ==== Proof.RpnArray_Host.lean ====
/-
  The six input arrays of the region, as the host operations before it leave them, read at an index: four are the argument
  arrays [1, N, k] with the leading unit axis dropped, the labels [1, N] become a column [N, 1], and the weights are the
  scatter-add of ones into zeros at the sampled words, as a column [N, 1]. And each input window's block at a grid point read
  at an index: block t of a window is rows 20000 t … 20000 t + 19999 of its array.
-/
import proofs.«413350_j40226663695030_1_alg».proof.Proof.Gen.KernelIdeal.Frame
import proofs.«413350_j40226663695030_1_alg».proof.Proof.RpnSpec
import proofs.«413350_j40226663695030_1_alg».proof.Proof.RpnArray_Weight
import Idealize.ShloMosaic.Lib.Pipeline.Value
import Idealize.ShloMosaic.Lib.StableHlo.Run
import Idealize.ShloMosaic.Lib.Tactic

noncomputable section

open scoped BigOperators

namespace Cert.Rpn

open Idealize.ShloMosaic Idealize.ShloMosaic.ValueIdx Idealize.ShloMosaic.TcCoe Idealize.SL.Sem Cert.KernelIdeal Cert.KernelIdeal.Gen
open Idealize.ShloMosaic.StableHlo

/-! ### The reshapes at an index (over any array) -/

section Reshapes
variable {α : Type}

/-- [1, N, 4] → [N, 4]: row n, column k is entry (0, n, k). -/
theorem reshape_box_apply (x : S1x2000000x4.Idx → α) (n : Fin 2000000) (k : Fin 4) :
    shapeCast S2000000x4 x shapeCasts_S1x2000000x4_S2000000x4 (ix2 n k) = x (ix3 (0 : Fin 1) n k) :=
  shapeCast_apply x _ (ix2 n k) (ix3 (0 : Fin 1) n k)
    (by rewrite [Shape.rowMajor_val_three, Shape.rowMajor_val_two]; show (0 * 2000000 + n.val) * 4 + k.val = n.val * 4 + k.val; omega)

/-- [1, N, 2] → [N, 2]. -/
theorem reshape_cls_apply (x : S1x2000000x2.Idx → α) (n : Fin 2000000) (k : Fin 2) :
    shapeCast S2000000x2 x shapeCasts_S1x2000000x2_S2000000x2 (ix2 n k) = x (ix3 (0 : Fin 1) n k) :=
  shapeCast_apply x _ (ix2 n k) (ix3 (0 : Fin 1) n k)
    (by rewrite [Shape.rowMajor_val_three, Shape.rowMajor_val_two]; show (0 * 2000000 + n.val) * 2 + k.val = n.val * 2 + k.val; omega)

/-- [1, N] → [N] → [N, 1]: row n is entry (0, n). -/
theorem reshape_lab_apply (x : S1x2000000.Idx → α) (n : Fin 2000000) :
    shapeCast S2000000x1 (shapeCast S2000000 x shapeCasts_S1x2000000_S2000000) shapeCasts_S2000000_S2000000x1 (ix2 n (0 : Fin 1))
      = x (ix2 (0 : Fin 1) n) := by
  rw [shapeCast_apply (shapeCast S2000000 x shapeCasts_S1x2000000_S2000000) shapeCasts_S2000000_S2000000x1 (ix2 n (0 : Fin 1)) (ix1 n)
    (by rewrite [Shape.rowMajor_val_two, Shape.rowMajor_val_one]; show n.val = n.val * 1 + 0; omega)]
  exact shapeCast_apply x _ (ix1 n) (ix2 (0 : Fin 1) n)
    (by rewrite [Shape.rowMajor_val_two, Shape.rowMajor_val_one]; show 0 * 2000000 + n.val = n.val; omega)

/-- [N] → [N, 1]. -/
theorem reshape_col_apply (y : S2000000.Idx → α) (n : Fin 2000000) :
    shapeCast S2000000x1 y shapeCasts_S2000000_S2000000x1 (ix2 n (0 : Fin 1)) = y (ix1 n) :=
  shapeCast_apply y _ (ix2 n (0 : Fin 1)) (ix1 n)
    (by rewrite [Shape.rowMajor_val_two, Shape.rowMajor_val_one]; show n.val = n.val * 1 + 0; omega)

end Reshapes

variable (m : (ℓ : Loc nD τ sig) → Buf (Elt Ideal) ℓ)

/-! ### The arrays the region finds -/

theorem V13_eq (c : Dev nD) : (V m c main_v13 : S2000000x4.Idx → EReal)
    = shapeCast S2000000x4 (m ((c.tc : Thread nD τ).loc main_arg0) : S1x2000000x4.Idx → EReal) shapeCasts_S1x2000000x4_S2000000x4 := by
  show StableHlo.after hostOps0 (fun b => m (c, b)) (Proc.devRef .tc main_v13) = _
  after_results
  rfl

theorem V14_eq (c : Dev nD) : (V m c main_v14 : S2000000x4.Idx → EReal)
    = shapeCast S2000000x4 (m ((c.tc : Thread nD τ).loc main_arg1) : S1x2000000x4.Idx → EReal) shapeCasts_S1x2000000x4_S2000000x4 := by
  show StableHlo.after hostOps0 (fun b => m (c, b)) (Proc.devRef .tc main_v14) = _
  after_results
  rfl

theorem V15_eq (c : Dev nD) : (V m c main_v15 : S2000000x2.Idx → EReal)
    = shapeCast S2000000x2 (m ((c.tc : Thread nD τ).loc main_arg2) : S1x2000000x2.Idx → EReal) shapeCasts_S1x2000000x2_S2000000x2 := by
  show StableHlo.after hostOps0 (fun b => m (c, b)) (Proc.devRef .tc main_v15) = _
  after_results
  rfl

theorem V16_eq (c : Dev nD) : (V m c main_v16 : S2000000x4.Idx → EReal)
    = shapeCast S2000000x4 (m ((c.tc : Thread nD τ).loc main_arg3) : S1x2000000x4.Idx → EReal) shapeCasts_S1x2000000x4_S2000000x4 := by
  show StableHlo.after hostOps0 (fun b => m (c, b)) (Proc.devRef .tc main_v16) = _
  after_results
  rfl

theorem V12_eq (c : Dev nD) : (V m c main_v12 : S2000000x1.Idx → BitVec 32)
    = shapeCast S2000000x1 (shapeCast S2000000 (m ((c.tc : Thread nD τ).loc main_arg4) : S1x2000000.Idx → BitVec 32) shapeCasts_S1x2000000_S2000000) shapeCasts_S2000000_S2000000x1 := by
  show StableHlo.after hostOps0 (fun b => m (c, b)) (Proc.devRef .tc main_v12) = _
  after_results
  rfl

theorem V10_eq (c : Dev nD) : (V m c main_v10 : S2000000x1.Idx → EReal)
    = shapeCast S2000000x1 (Host.scatterAdd (F := Ideal) scat
        (broadcastInDim S2000000 ![] bcast_S_S2000000 (constant (F := Ideal) S_ .f32 0x00000000#32))
        (normIdx (m ((c.tc : Thread nD τ).loc main_arg5) : S1x500000.Idx → BitVec 32))
        (broadcastInDim S500000 ![] bcast_S_S500000 (constant (F := Ideal) S_ .f32 0x3F800000#32))) shapeCasts_S2000000_S2000000x1 := by
  show StableHlo.after hostOps0 (fun b => m (c, b)) (Proc.devRef .tc main_v10) = _
  after_results
  rfl

/-! ### Each array at a row -/

theorem V13_apply (c : Dev nD) (n : Fin 2000000) (k : Fin 4) :
    (V m c main_v13 : S2000000x4.Idx → EReal) (ix2 n k) = (m ((c.tc : Thread nD τ).loc main_arg0) : FVec Ideal SBox .f32) (ix3 (0 : Fin 1) n k) := by
  rw [V13_eq]; exact reshape_box_apply _ n k
theorem V14_apply (c : Dev nD) (n : Fin 2000000) (k : Fin 4) :
    (V m c main_v14 : S2000000x4.Idx → EReal) (ix2 n k) = (m ((c.tc : Thread nD τ).loc main_arg1) : FVec Ideal SBox .f32) (ix3 (0 : Fin 1) n k) := by
  rw [V14_eq]; exact reshape_box_apply _ n k
theorem V15_apply (c : Dev nD) (n : Fin 2000000) (k : Fin 2) :
    (V m c main_v15 : S2000000x2.Idx → EReal) (ix2 n k) = (m ((c.tc : Thread nD τ).loc main_arg2) : FVec Ideal SCls .f32) (ix3 (0 : Fin 1) n k) := by
  rw [V15_eq]; exact reshape_cls_apply _ n k
theorem V16_apply (c : Dev nD) (n : Fin 2000000) (k : Fin 4) :
    (V m c main_v16 : S2000000x4.Idx → EReal) (ix2 n k) = (m ((c.tc : Thread nD τ).loc main_arg3) : FVec Ideal SBox .f32) (ix3 (0 : Fin 1) n k) := by
  rw [V16_eq]; exact reshape_box_apply _ n k
theorem V12_apply (c : Dev nD) (n : Fin 2000000) :
    (V m c main_v12 : S2000000x1.Idx → BitVec 32) (ix2 n (0 : Fin 1)) = (m ((c.tc : Thread nD τ).loc main_arg4) : IVec SLab 32) (ix2 (0 : Fin 1) n) := by
  rw [V12_eq]; exact reshape_lab_apply _ n
/-- The weight column at anchor n is the number of sampled positions that name n, when every sampled word is an anchor index. -/
theorem V10_apply (c : Dev nD)
    (hvi : ∀ v : Fin 500000, 0 ≤ ((m ((c.tc : Thread nD τ).loc main_arg5) : IVec SVal 32) (ix2 0 v)).toInt
      ∧ ((m ((c.tc : Thread nD τ).loc main_arg5) : IVec SVal 32) (ix2 0 v)).toInt < 2000000) (n : Fin 2000000) :
    (V m c main_v10 : S2000000x1.Idx → EReal) (ix2 n (0 : Fin 1)) = weight (m ((c.tc : Thread nD τ).loc main_arg5) : IVec SVal 32) n := by
  rw [V10_eq, reshape_col_apply]
  exact weight_scatter _ hvi n

/-! ### The blocks at a point -/

/-- The block indices of the seven windows at a point, decided over the grid: block t of every window. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem iblk0_apply (c : Dev nD) (t : Fin cfg0.N) (r : Fin 20000) (k : Fin 4) (n : Fin 2000000) (hn : n.val = t.val * 20000 + r.val) :
    (iblk m c 0 t : Vec Ideal S20000x4 .f32) (ix2 r k) = (V m c main_v13 : S2000000x4.Idx → EReal) (ix2 n k) := by
  obtain ⟨e0, e1, -⟩ := idx_facts t
  unfold iblk
  rw [View.read_apply]
  show V m c main_v13 _ = V m c main_v13 _
  congr 1
  funext a; apply Fin.ext
  match a with
  | ⟨0, _⟩ => show win0_0.index t (0 : Fin 2) * 20000 + 1 * r.val = n.val; rw [e0, hn]; omega
  | ⟨1, _⟩ => show win0_0.index t (1 : Fin 2) * 4 + 1 * k.val = k.val; rw [e1]; omega

theorem iblk1_apply (c : Dev nD) (t : Fin cfg0.N) (r : Fin 20000) (k : Fin 4) (n : Fin 2000000) (hn : n.val = t.val * 20000 + r.val) :
    (iblk m c 1 t : Vec Ideal S20000x4 .f32) (ix2 r k) = (V m c main_v14 : S2000000x4.Idx → EReal) (ix2 n k) := by
  obtain ⟨-, -, e0, e1, -⟩ := idx_facts t
  unfold iblk
  rw [View.read_apply]
  show V m c main_v14 _ = V m c main_v14 _
  congr 1
  funext a; apply Fin.ext
  match a with
  | ⟨0, _⟩ => show win0_1.index t (0 : Fin 2) * 20000 + 1 * r.val = n.val; rw [e0, hn]; omega
  | ⟨1, _⟩ => show win0_1.index t (1 : Fin 2) * 4 + 1 * k.val = k.val; rw [e1]; omega

theorem iblk2_apply (c : Dev nD) (t : Fin cfg0.N) (r : Fin 20000) (k : Fin 2) (n : Fin 2000000) (hn : n.val = t.val * 20000 + r.val) :
    (iblk m c 2 t : Vec Ideal S20000x2 .f32) (ix2 r k) = (V m c main_v15 : S2000000x2.Idx → EReal) (ix2 n k) := by
  obtain ⟨-, -, -, -, e0, e1, -⟩ := idx_facts t
  unfold iblk
  rw [View.read_apply]
  show V m c main_v15 _ = V m c main_v15 _
  congr 1
  funext a; apply Fin.ext
  match a with
  | ⟨0, _⟩ => show win0_2.index t (0 : Fin 2) * 20000 + 1 * r.val = n.val; rw [e0, hn]; omega
  | ⟨1, _⟩ => show win0_2.index t (1 : Fin 2) * 2 + 1 * k.val = k.val; rw [e1]; omega

theorem iblk3_apply (c : Dev nD) (t : Fin cfg0.N) (r : Fin 20000) (k : Fin 4) (n : Fin 2000000) (hn : n.val = t.val * 20000 + r.val) :
    (iblk m c 3 t : Vec Ideal S20000x4 .f32) (ix2 r k) = (V m c main_v16 : S2000000x4.Idx → EReal) (ix2 n k) := by
  obtain ⟨-, -, -, -, -, -, e0, e1, -⟩ := idx_facts t
  unfold iblk
  rw [View.read_apply]
  show V m c main_v16 _ = V m c main_v16 _
  congr 1
  funext a; apply Fin.ext
  match a with
  | ⟨0, _⟩ => show win0_3.index t (0 : Fin 2) * 20000 + 1 * r.val = n.val; rw [e0, hn]; omega
  | ⟨1, _⟩ => show win0_3.index t (1 : Fin 2) * 4 + 1 * k.val = k.val; rw [e1]; omega

theorem iblk4_apply (c : Dev nD) (t : Fin cfg0.N) (r : Fin 20000) (n : Fin 2000000) (hn : n.val = t.val * 20000 + r.val) :
    (iblk m c 4 t : Vec Ideal S20000x1 .f32) (ix2 r (0 : Fin 1)) = (V m c main_v10 : S2000000x1.Idx → EReal) (ix2 n (0 : Fin 1)) := by
  obtain ⟨-, -, -, -, -, -, -, -, e0, e1, -⟩ := idx_facts t
  unfold iblk
  rw [View.read_apply]
  show V m c main_v10 _ = V m c main_v10 _
  congr 1
  funext a; apply Fin.ext
  match a with
  | ⟨0, _⟩ => show win0_4.index t (0 : Fin 2) * 20000 + 1 * r.val = n.val; rw [e0, hn]; omega
  | ⟨1, _⟩ => show win0_4.index t (1 : Fin 2) * 1 + 1 * 0 = 0; rw [e1]

theorem iblk5_apply (c : Dev nD) (t : Fin cfg0.N) (r : Fin 20000) (n : Fin 2000000) (hn : n.val = t.val * 20000 + r.val) :
    (iblk m c 5 t : Vec Ideal S20000x1 .i32) (ix2 r (0 : Fin 1)) = (V m c main_v12 : S2000000x1.Idx → BitVec 32) (ix2 n (0 : Fin 1)) := by
  obtain ⟨-, -, -, -, -, -, -, -, -, -, e0, e1, -⟩ := idx_facts t
  unfold iblk
  rw [View.read_apply]
  show V m c main_v12 _ = V m c main_v12 _
  congr 1
  funext a; apply Fin.ext
  match a with
  | ⟨0, _⟩ => show win0_5.index t (0 : Fin 2) * 20000 + 1 * r.val = n.val; rw [e0, hn]; omega
  | ⟨1, _⟩ => show win0_5.index t (1 : Fin 2) * 1 + 1 * 0 = 0; rw [e1]

end Cert.Rpn

end
-- ==== Proof.RpnArray.lean ====
/-
  The region's output array [800, 128] after the run: row 8t, column q < 5 holds tile t's q-th sum, read off the argument arrays
  (the weight of an anchor is the number of sampled words that name it: the scatter-add of ones into zeros).

  The array is written block by block: point t of the grid of 100 stores the 8 x 128 block the body computes from block t of
  the six input arrays into rows 8t … 8t + 7. So entry (i, j) of the array is entry (i mod 8, j) of what point i / 8 stores, and
  the 100 blocks cover the 800 rows.
-/
import proofs.«413350_j40226663695030_1_alg».proof.Proof.Gen.KernelIdeal.Frame
import proofs.«413350_j40226663695030_1_alg».proof.Proof.RpnSpec
import proofs.«413350_j40226663695030_1_alg».proof.Proof.RpnBody
import proofs.«413350_j40226663695030_1_alg».proof.Proof.RpnArray_Sum
import proofs.«413350_j40226663695030_1_alg».proof.Proof.RpnArray_Host
import Idealize.ShloMosaic.Lib.Pipeline.Value

noncomputable section

open scoped BigOperators

namespace Cert.Rpn

open Idealize.ShloMosaic Idealize.ShloMosaic.ValueIdx Idealize.ShloMosaic.TcCoe Idealize.SL.Sem Cert.KernelIdeal Cert.KernelIdeal.Gen

variable (m : (ℓ : Loc nD τ sig) → Buf (Elt Ideal) ℓ)

/-- What a point leaves in the output window's buffer: the body's 8 x 128 block of the six input blocks at that point. -/
def tileOut (m : (ℓ : Loc nD τ sig) → Buf (Elt Ideal) ℓ) (c : Dev nD) (t : Fin cfg0.N) : Vec Ideal S8x128 .f32 :=
  out0_6 (iblk m c 0 t) (iblk m c 1 t) (iblk m c 2 t) (iblk m c 3 t) (iblk m c 4 t) (iblk m c 5 t)

/-- Row i of the array lies in the block of point i / 8. -/
theorem tile_lt (i : S800x128.Idx) : (i 0).val / 8 < cfg0.N := by
  have h : (i 0).val < 800 := (i 0).isLt
  rw [show cfg0.N = 100 from N_0]
  omega

/-- The output array as one function of the argument arrays: entry (i, j) is entry (i mod 8, j) of what point i / 8 stores. -/
def outArr (m : (ℓ : Loc nD τ sig) → Buf (Elt Ideal) ℓ) (c : Dev nD) : FVec Ideal S800x128 .f32 := fun i =>
  tileOut m c ⟨(i 0).val / 8, tile_lt i⟩ (ix2 (⟨(i 0).val % 8, Nat.mod_lt _ (by decide)⟩ : Fin 8) (⟨(i 1).val, (i 1).isLt⟩ : Fin 128))

/-- The array at row 8t + a, column b is point t's block at (a, b). -/
theorem outArr_apply (c : Dev nD) (i : S800x128.Idx) (t : Fin cfg0.N) (a : Fin 8) (b : Fin 128)
    (h0 : (i 0).val = t.val * 8 + a.val) (h1 : (i 1).val = b.val) : outArr m c i = tileOut m c t (ix2 a b) := by
  have ha : a.val < 8 := a.isLt
  unfold outArr
  have hT : (⟨(i 0).val / 8, tile_lt i⟩ : Fin cfg0.N) = t := Fin.ext (by show (i 0).val / 8 = t.val; omega)
  rw [hT]
  refine congrArg (tileOut m c t) (funext fun d => Fin.ext ?_)
  match d with
  | ⟨0, _⟩ => show (i 0).val % 8 = a.val; omega
  | ⟨1, _⟩ => show (i 1).val = b.val; exact h1

/-- What point t writes back is block t of the array. -/
theorem flushed6_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]
  obtain ⟨-, -, -, -, -, -, -, -, -, -, -, -, e0, e1⟩ := idx_facts t
  funext j
  have hj0 : (j 0).val < 8 := (j 0).isLt
  have hj1 : (j 1).val < 128 := (j 1).isLt
  show tileOut m c t j = outArr m c (((cfg0.win 6).blk t).view.emb j)
  rw [outArr_apply m c (((cfg0.win 6).blk t).view.emb j) t ⟨(j 0).val, hj0⟩ ⟨(j 1).val, hj1⟩
    (by show win0_6.index t (0 : Fin 2) * 8 + 1 * (j 0).val = t.val * 8 + (j 0).val; rw [e0]; omega)
    (by show win0_6.index t (1 : Fin 2) * 128 + 1 * (j 1).val = (j 1).val; rw [e1]; omega)]
  refine congrArg (tileOut m c t) (funext fun d => Fin.ext ?_)
  match d with
  | ⟨0, _⟩ => rfl
  | ⟨1, _⟩ => rfl

/-- An index of the array is in point t's block iff each coordinate is in the block's range on its axis. -/
theorem mem_blk6 (t : Fin cfg0.N) (i : S800x128.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v17).slice (win0_6.rect t)).set ↔ _
  rw [View.set_slice_whole, Rect.mem_set_unit]
  exact Iff.rfl

/-- The pipeline's output array after the run is that function: every point writes back its block of it, and row i is in the
    block of point i / 8. -/
theorem final6 (c : Dev nD) : (dats m 0 c).arrAt 6 cfg0.N = outArr m c :=
  (dats m 0 c).arrAt_eq_of_cover 6 (outArr m c) (fun t _ => flushed6_eq m c t) fun i => by
    have hi0 : (i 0).val < 800 := (i 0).isLt
    have hi1 : (i 1).val < 128 := (i 1).isLt
    refine ⟨⟨(i 0).val / 8, tile_lt i⟩, flush0_6 _, ?_⟩
    obtain ⟨-, -, -, -, -, -, -, -, -, -, -, -, e0, e1⟩ := idx_facts ⟨(i 0).val / 8, tile_lt i⟩
    rw [mem_blk6]
    intro a
    match a with
    | ⟨0, _⟩ =>
      show win0_6.index _ (0 : Fin 2) * 8 ≤ (i 0).val ∧ (i 0).val < win0_6.index _ (0 : Fin 2) * 8 + 8
      rw [e0]
      show (i 0).val / 8 * 8 ≤ (i 0).val ∧ (i 0).val < (i 0).val / 8 * 8 + 8
      omega
    | ⟨1, _⟩ =>
      show win0_6.index _ (1 : Fin 2) * 128 ≤ (i 1).val ∧ (i 1).val < win0_6.index _ (1 : Fin 2) * 128 + 128
      rw [e1]
      omega

/-- Its entry at row 8t, column q < 5 is tile t's q-th sum: row 0 of point t's block holds the five sums over the block's 20,000
    rows, and row r of each input block is anchor 20000 t + r's row of the argument array, its weight and its label. -/
theorem outArr_entry (c : Dev nD)
    (hvi : ∀ v : Fin 500000, 0 ≤ ((m ((c.tc : Thread nD τ).loc main_arg5) : IVec SVal 32) (ix2 0 v)).toInt
      ∧ ((m ((c.tc : Thread nD τ).loc main_arg5) : IVec SVal 32) (ix2 0 v)).toInt < 2000000)
    (t : Fin 100) (q : Fin 5) :
    outArr m c (ix2 (⟨8 * t.val, by have := t.isLt; omega⟩ : Fin 800) (⟨q.val, by have := q.isLt; omega⟩ : Fin 128))
      = tileSum (ktermQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) q) t := by
  have htN : t.val < cfg0.N := by rw [show cfg0.N = 100 from N_0]; exact t.isLt
  rw [outArr_apply m c _ ⟨t.val, htN⟩ (0 : Fin 8) (⟨q.val, by have := q.isLt; omega⟩ : Fin 128)
    (by show 8 * t.val = t.val * 8 + 0; omega) rfl]
  unfold tileOut
  refine (out_block (iblk m c 0 ⟨t.val, htN⟩) (iblk m c 1 ⟨t.val, htN⟩) (iblk m c 2 ⟨t.val, htN⟩) (iblk m c 3 ⟨t.val, htN⟩)
    (iblk m c 4 ⟨t.val, htN⟩) (iblk m c 5 ⟨t.val, htN⟩) q).trans ?_
  refine blkSum_eq_tileSum _ _ _ _ _ _ t _ _ _ _ _ _ (fun r => ?_) (fun r => ?_) (fun r => ?_) (fun r => ?_) (fun r => ?_) (fun r => ?_) q
  · funext k
    exact (iblk0_apply m c ⟨t.val, htN⟩ r k (anchorOf t r) rfl).trans (V13_apply m c (anchorOf t r) k)
  · funext k
    exact (iblk1_apply m c ⟨t.val, htN⟩ r k (anchorOf t r) rfl).trans (V14_apply m c (anchorOf t r) k)
  · funext k
    exact (iblk2_apply m c ⟨t.val, htN⟩ r k (anchorOf t r) rfl).trans (V15_apply m c (anchorOf t r) k)
  · funext k
    exact (iblk3_apply m c ⟨t.val, htN⟩ r k (anchorOf t r) rfl).trans (V16_apply m c (anchorOf t r) k)
  · exact (iblk4_apply m c ⟨t.val, htN⟩ r (anchorOf t r) rfl).trans (V10_apply m c hvi (anchorOf t r))
  · show (((iblk m c 5 ⟨t.val, htN⟩ (ix2 r (0 : Fin 1))).toInt : ℝ) : EReal) = labf _ (anchorOf t r)
    rw [iblk5_apply m c ⟨t.val, htN⟩ r (anchorOf t r) rfl, V12_apply m c (anchorOf t r)]
    rfl

end Cert.Rpn

end
-- ==== Proof.RpnTail.lean ====
/-
  The kernel program's run with its result named: after the region, the host sums each of the five columns over the 100 tiles
  and combines them into the loss.
-/
import proofs.«413350_j40226663695030_1_alg».proof.Proof.Gen.KernelIdeal.Frame
import proofs.«413350_j40226663695030_1_alg».proof.Proof.RpnSpec
import proofs.«413350_j40226663695030_1_alg».proof.Proof.RpnArray
import Idealize.ShloMosaic.Lib.StableHlo.Run
import Idealize.ShloMosaic.Lib.Pipeline.Value

noncomputable section

open scoped BigOperators

namespace Cert.Rpn

open Idealize.ShloMosaic Idealize.ShloMosaic.ValueIdx Idealize.ShloMosaic.TcCoe Idealize.SL.Sem Cert.KernelIdeal Cert.KernelIdeal.Gen

section Tail

variable (m : (ℓ : Loc nD τ sig) → Buf (Elt Ideal) ℓ)

/-! ### The operations after the region, as one function of the region's output array -/

/-- The five column totals: the array regrouped as [100, 8, 128], its entries (t, 0, q) for q < 5 kept, and those summed over
    the 100 values of t, from zero. -/
def totals (A : FVec Ideal S800x128 .f32) : FVec Ideal S5 .f32 :=
  Host.reduceAdd (F := Ideal)
    (shapeCast S100x5
      (extractStridedSlice S100x1x5 ![0, 0, 0] (shapeCast S100x8x128 A shapeCasts_S800x128_S100x8x128)
        slices_S100x8x128_S100x1x5_0_0_0)
      shapeCasts_S100x1x5_S100x5)
    (constant (F := Ideal) S_ .f32 0x00000000#32) reducesTo_S100x5_S5_d0 h_S_

/-- Entry k of a vector of five, as a scalar. -/
def pick (T : FVec Ideal S5 .f32) (k : Nat) (h : S5.Slices ![k] KernelIdeal.S1) : FVec Ideal S_ .f32 :=
  shapeCast S_ (extractStridedSlice KernelIdeal.S1 ![k] T h) shapeCasts_S1_S_

/-- The loss from the output array: with T the five totals, -T0 / 500000 + (T1 / T3 + T2 / T4). -/
def tailFn (A : FVec Ideal S800x128 .f32) : FVec Ideal S_ .f32 :=
  addf (Host.divf (Host.negf (pick (totals A) 0 slices_S5_S1_0)) (constant (F := Ideal) S_ .f32 0x48F42400#32))
    (addf (Host.divf (pick (totals A) 1 slices_S5_S1_1) (pick (totals A) 3 slices_S5_S1_3))
      (Host.divf (pick (totals A) 2 slices_S5_S1_2) (pick (totals A) 4 slices_S5_S1_4)))

/-- From any contents, the operations after the region leave the result at that function of the output array's contents. -/
theorem tail_eq (G : Valuation τ sig (Elt Ideal)) :
    StableHlo.after (hostOps1 (F := Ideal)) G (Proc.devRef .tc main_v37) = tailFn (G (Proc.devRef .tc main_v17)) := by
  after_results_simp
  rfl

/-! ### Reading it at an index -/

/-- Column q of the rows 8t of an array, summed over the 100 values of t. -/
def colSum (A : FVec Ideal S800x128 .f32) (q : Fin 5) : EReal :=
  ∑ t : Fin 100, A (ix2 (⟨8 * t.val, by have := t.isLt; omega⟩ : Fin 800) (⟨q.val, by have := q.isLt; omega⟩ : Fin 128))

/-- Total q is column q of the rows 8t summed over t: row 8t of [800, 128] is entry (t, 0) of [100, 8, 128]. -/
theorem totals_apply (A : FVec Ideal S800x128 .f32) (q : Fin 5) : totals A (ix1 q) = colSum A q := by
  unfold totals colSum
  rw [hostReduceAdd_apply, Ideal.hostReduceAdd_single reducesTo_S100x5_S5_d0 (by decide : S100x5.Reduces [0] S5),
    constant_apply, Ideal.ofBits_zero_f32, zero_add]
  refine Finset.sum_congr rfl fun (t : Fin 100) _ => ?_
  refine (shapeCast_apply _ _ _ (ix3 t (0 : Fin 1) q) ?_).trans ?_
  · rw [Shape.rowMajor_val_three, Shape.rowMajor_val_two]
    show (t.val * 1 + 0) * 5 + q.val = t.val * 5 + q.val
    omega
  refine (extractStridedSlice_apply _ _ _ _
    (ix3 t (0 : Fin 8) (⟨q.val, by have := q.isLt; omega⟩ : Fin 128)) ?_).trans ?_
  · intro a
    match a with
    | ⟨0, _⟩ => exact (Nat.zero_add _).symm
    | ⟨1, _⟩ => rfl
    | ⟨2, _⟩ => exact (Nat.zero_add _).symm
  refine shapeCast_apply _ _ _ _ ?_
  rw [Shape.rowMajor_val_two, Shape.rowMajor_val_three]
  show 8 * t.val * 128 + q.val = (t.val * 8 + 0) * 128 + q.val
  omega

/-- Picking entry k reads the vector at k. -/
theorem pick_apply (T : FVec Ideal S5 .f32) (k : Fin 5) (h : S5.Slices ![k.val] KernelIdeal.S1) (i : S_.Idx) :
    pick T k.val h i = T (ix1 k) := by
  unfold pick
  refine (shapeCast_apply _ _ _ (ix1 (0 : Fin 1)) ?_).trans ?_
  · rw [eq_ix0 i]; rfl
  refine extractStridedSlice_apply _ _ _ _ _ ?_
  intro a
  match a with
  | ⟨0, _⟩ => rfl

/-- The loss from the output array, in the column sums. -/
theorem tailFn_apply (A : FVec Ideal S800x128 .f32) (i : S_.Idx) :
    tailFn A i = Ideal.div (-(colSum A 0)) countC + (Ideal.div (colSum A 1) (colSum A 3) + Ideal.div (colSum A 2) (colSum A 4)) := by
  have e0 : pick (totals A) 0 slices_S5_S1_0 i = colSum A 0 := (pick_apply (totals A) 0 slices_S5_S1_0 i).trans (totals_apply A 0)
  have e1 : pick (totals A) 1 slices_S5_S1_1 i = colSum A 1 := (pick_apply (totals A) 1 slices_S5_S1_1 i).trans (totals_apply A 1)
  have e2 : pick (totals A) 2 slices_S5_S1_2 i = colSum A 2 := (pick_apply (totals A) 2 slices_S5_S1_2 i).trans (totals_apply A 2)
  have e3 : pick (totals A) 3 slices_S5_S1_3 i = colSum A 3 := (pick_apply (totals A) 3 slices_S5_S1_3 i).trans (totals_apply A 3)
  have e4 : pick (totals A) 4 slices_S5_S1_4 i = colSum A 4 := (pick_apply (totals A) 4 slices_S5_S1_4 i).trans (totals_apply A 4)
  show Ideal.div (-(pick (totals A) 0 slices_S5_S1_0 i)) countC
      + (Ideal.div (pick (totals A) 1 slices_S5_S1_1 i) (pick (totals A) 3 slices_S5_S1_3 i)
        + Ideal.div (pick (totals A) 2 slices_S5_S1_2 i) (pick (totals A) 4 slices_S5_S1_4 i)) = _
  rw [e0, e1, e2, e3, e4]

/-! ### At the region's output -/

/-- Column q of the output array's rows 8t, summed over t, is the q-th summand summed over all tiles. -/
theorem colSum_outArr (c : Dev nD)
    (hvi : ∀ v : Fin 500000, 0 ≤ ((m ((c.tc : Thread nD τ).loc main_arg5) : IVec SVal 32) (ix2 0 v)).toInt
      ∧ ((m ((c.tc : Thread nD τ).loc main_arg5) : IVec SVal 32) (ix2 0 v)).toInt < 2000000) (q : Fin 5) :
    colSum (outArr m c) q = tilesSum (ktermQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) q) :=
  Finset.sum_congr rfl fun t _ => outArr_entry m c hvi t q

/-- The operations after the region take the output array to the weighted, tile-by-tile form of the loss. -/
theorem tailFn_outArr (c : Dev nD)
    (hvi : ∀ v : Fin 500000, 0 ≤ ((m ((c.tc : Thread nD τ).loc main_arg5) : IVec SVal 32) (ix2 0 v)).toInt
      ∧ ((m ((c.tc : Thread nD τ).loc main_arg5) : IVec SVal 32) (ix2 0 v)).toInt < 2000000) :
    tailFn (outArr m c) = fun _ => kresult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  rw [tailFn_apply, colSum_outArr m c hvi 0, colSum_outArr m c hvi 1, colSum_outArr m c hvi 2, colSum_outArr m c hvi 3,
    colSum_outArr m c hvi 4]
  rfl

/-- What the lines after the region leave in the result buffer. -/
theorem tail_value (c : Dev nD)
    (hvi : ∀ v : Fin 500000, 0 ≤ ((m ((c.tc : Thread nD τ).loc main_arg5) : IVec SVal 32) (ix2 0 v)).toInt
      ∧ ((m ((c.tc : Thread nD τ).loc main_arg5) : IVec SVal 32) (ix2 0 v)).toInt < 2000000) :
    Pipeline.afterTail₀ cfgs (dats m) 0 (V0 m) [hostOps1] c main_v37 = fun _ => kresult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v37) = _
  refine (tail_eq _).trans ?_
  refine Eq.trans (congrArg tailFn ?_) (tailFn_outArr m c hvi)
  exact (Pipeline.withArrays_arr spec0 launch0.win.arr_inj c _ _ 6).trans (final6 m c)

end Tail

/-- Every weakly fair execution of the kernel program terminates with its result at the weighted, tile-by-tile form of the loss
    and its arguments unchanged, when every sampled word is an anchor index. -/
theorem kernel_value_run (m : (ℓ : Loc nD τ sig) → Buf (Elt Ideal) ℓ) (ρ : Dev nD → PrngReg)
    (hvi : ∀ (c : Dev nD) (v : Fin 500000), 0 ≤ ((m ((c.tc : Thread nD τ).loc main_arg5) : IVec SVal 32) (ix2 0 v)).toInt
      ∧ ((m ((c.tc : Thread nD τ).loc main_arg5) : IVec SVal 32) (ix2 0 v)).toInt < 2000000) :
    θ_run (defs (F := Ideal)) (onTc (τ := τ) (main (F := Ideal))) ⟨m, fun _ => 0, ρ⟩ (fun r => ∀ c : Dev nD,
      r.2.mem ((c.tc : Thread nD τ).loc main_v37) = (fun _ => kresult (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v37 (Pipeline.mem_restRefs_of main_v37 (by decide) (by decide))).trans (tail_value m c (hvi c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Rpn

end
-- ==== Proof.lean ====
/-
  The certificate of the region-proposal loss kernel against its jnp reference, over the extended reals.

  Both programs compute  -(S0 / V) + (S1 / nPos + S2 / nNeg)  (Proof/RpnSpec.lean): S0 the log-probability of each sampled
  anchor's own label, S1 the attenuated regression term over the sampled anchors labelled 1, S2 the background term over the
  others, nPos and nNeg the two counts. The reference gathers the V = 500,000 sampled rows and sums over them. The kernel
  scatters ones at the sampled indices into a weight per anchor (the number of times the anchor is sampled), streams all
  N = 2,000,000 anchors through one pallas_call in 100 tiles of 20,000, each tile leaving five weighted partial sums, and adds
  the tiles on the host. The two agree because a sum over sampled positions of h at the anchor named is the sum over anchors of
  multiplicity times h (Proof/RpnBridge.lean) — on the domain where every sampled word is an anchor index and every label is
  0 or 1, which the precondition states (Proof/RpnPre.lean reads it back).

  The kernel's run is the generated frame with the region's output array and the host operations after it read as values
  (Proof/RpnBody.lean: one tile's block; Proof/RpnArray*.lean: the whole output array from the argument arrays;
  Proof/RpnTail.lean: the host tail and the run). The reference's run is its operation list run in order (Proof/RefRun.lean)
  and read one operation at a time (Proof/RefRead.lean, Proof/RpnRef.lean). Nothing is rewritten by the ideal pass, so
  `preserves` is trivial.
-/
import proofs.«413350_j40226663695030_1_alg».proof.Defs
import proofs.«413350_j40226663695030_1_alg».proof.Proof.Gen.Kernel
import proofs.«413350_j40226663695030_1_alg».proof.Proof.Gen.Kernel.Frame
import proofs.«413350_j40226663695030_1_alg».proof.Proof.Gen.KernelIdeal
import proofs.«413350_j40226663695030_1_alg».proof.Proof.Gen.KernelIdeal.Frame
import proofs.«413350_j40226663695030_1_alg».proof.Proof.Gen.ReferenceIdeal
import proofs.«413350_j40226663695030_1_alg».proof.Proof.Gen.Pre_finite_inputs
import proofs.«413350_j40226663695030_1_alg».proof.Proof.RefRun
import proofs.«413350_j40226663695030_1_alg».proof.Proof.RefReadEq
import proofs.«413350_j40226663695030_1_alg».proof.Proof.RpnSpec
import proofs.«413350_j40226663695030_1_alg».proof.Proof.RpnBridge
import proofs.«413350_j40226663695030_1_alg».proof.Proof.RpnPre
import proofs.«413350_j40226663695030_1_alg».proof.Proof.RpnRef
import proofs.«413350_j40226663695030_1_alg».proof.Proof.RpnTail
import Idealize.ShloMosaic.Adequacy
import Idealize.ShloMosaic.Init

noncomputable section

namespace Cert.Proof

open Idealize.ShloMosaic Idealize.ShloMosaic.TcCoe Idealize.SL.Sem

/-- The word-level kernel runs and leaves its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.RunCopy.run (F := Ideal) m ρ)

/-- From memories agreeing on the arguments both programs end at the loss of those arguments: the kernel at its weighted,
    tile-by-tile form, which is the form over the sampled positions where the precondition holds, and the reference at that
    form directly. -/
theorem algebraic : Cert.algebraic_KernelIdeal_ReferenceIdeal := by
  intro m ρ m' ρ' hpre hagree
  have hf := fun c : Dev Cert.KernelIdeal.nD => Cert.Rpn.pre_facts _ _ _ _ _ _ (hpre c)
  refine ⟨fun c => fun _ => Cert.Rpn.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run (Cert.KernelIdeal.defs (F := Ideal)) _ _).mono (fun r h c => ⟨(h c).1.trans ?_, (h c).2⟩)
      (Cert.Rpn.kernel_value_run m ρ (fun c => (hf c).1))
    exact funext fun _ => Cert.Rpn.kresult_eq_result _ _ _ _ _ _ (hf c).2
  · refine (θ_run (Cert.ReferenceIdeal.defs (F := Ideal)) _ _).mono (fun r h c => ⟨(h c).1.trans ?_, (h c).2⟩)
      (Cert.ReferenceIdeal.RunCopy.run (F := Ideal) m' ρ')
    rw [Cert.ReferenceIdeal.ReadCopy.val_main_v79_eq, (hagree c).1, (hagree c).2.1, (hagree c).2.2.1, (hagree c).2.2.2.1,
      (hagree c).2.2.2.2.1, (hagree c).2.2.2.2.2]
    exact Cert.Rpn.ref_value _ _ _ _ _ _ (hf c).1 (hf c).2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
